-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 32 := constantI S_ 32 100000#32
  let main_v26 : IVec S2x1600000 32 := broadcastInDim S2x1600000 ![] bcast_S_S2x1600000 main_c_9
  let main_v27 : IVec S2x1600000 1 := cmpi .slt main_arg1 main_v26
  let main_v28 : IVec S2x1600000 1 := andi main_v25 main_v27
  let main_c_10 : IVec S_ 1 := constantI S_ 1 1#1
  let main_v29 : IVec S_ 1 := (fun x v => Host.reduce IntOp.andi x v reducesTo_S2x1600000_S_d0_1 h_S_) main_v28 main_c_10
  let main_v30 : IVec S_ 1 := andi main_v23 main_v29
  main_v30

def fn {F : FTy → Type} [FloatOps F] (main_arg0 : FVec F S100000x128 .f32) (main_arg1 : IVec S2x1600000 32) (main_arg2 : FVec F S128x32 .f32) (main_arg3 : FVec F S32 .f32) (main_arg4 : FVec F S32x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1 : Shape := ⟨1, ![1]⟩
abbrev S1x1 : Shape := ⟨2, ![1, 1]⟩
abbrev S100000x32 : Shape := ⟨2, ![100000, 32]⟩
abbrev S10000x128 : Shape := ⟨2, ![10000, 128]⟩
abbrev S10000x32 : Shape := ⟨2, ![10000, 32]⟩
abbrev S1600000x32 : Shape := ⟨2, ![1600000, 32]⟩
abbrev S1x32 : Shape := ⟨2, ![1, 32]⟩
abbrev S100000x16 : Shape := ⟨2, ![100000, 16]⟩
abbrev S10000x16 : Shape := ⟨2, ![10000, 16]⟩
abbrev S1600000x16 : Shape := ⟨2, ![1600000, 16]⟩
abbrev S1x16 : Shape := ⟨2, ![1, 16]⟩

abbrev nBuf : Space → Nat
  | .hbm => 137
  | .vmem => 20
  | .smem => 0
  | _ => 0

abbrev hbmTy0_0 (i : Nat) : BufTy := match i % 128 with
  | 0 => ⟨S100000x128, .f32⟩
  | 1 => ⟨S2x1600000, .i32⟩
  | 2 => ⟨S128x32, .f32⟩
  | 3 => ⟨S32, .f32⟩
  | 4 => ⟨S32x16, .f32⟩
  | 5 => ⟨S16, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S_, .f32⟩
  | 23 => ⟨S_, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1, .i32⟩
  | 35 => ⟨S_, .i32⟩
  | 36 => ⟨S1600000x1, .i32⟩
  | 37 => ⟨S1600000x1, .i1⟩
  | 38 => ⟨S1x1, .i32⟩
  | 39 => ⟨S1600000x1, .i32⟩
  | 40 => ⟨S1600000x1, .i1⟩
  | 41 => ⟨S1600000x1, .i1⟩
  | 42 => ⟨S_, .i1⟩
  | 43 => ⟨S1600000, .i1⟩
  | 44 => ⟨S1600000, .f32⟩
  | 45 => ⟨S_, .f32⟩
  | 46 => ⟨S1600000, .f32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1, .i32⟩
  | 57 => ⟨S_, .i32⟩
  | 58 => ⟨S1600000x1, .i32⟩
  | 59 => ⟨S1600000x1, .i1⟩
  | 60 => ⟨S1x1, .i32⟩
  | 61 => ⟨S1600000x1, .i32⟩
  | 62 => ⟨S1600000x1, .i1⟩
  | 63 => ⟨S1600000x1, .i1⟩
  | 64 => ⟨S_, .i1⟩
  | 65 => ⟨S1600000, .i1⟩
  | 66 => ⟨S1600000, .f32⟩
  | 67 => ⟨S_, .f32⟩
  | 68 => ⟨S1600000, .f32⟩
  | 69 => ⟨S1600000, .f32⟩
  | 70 => ⟨S1600000, .f32⟩
  | 71 => ⟨S100000x32, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1, .i32⟩
  | 81 => ⟨S_, .i32⟩
  | 82 => ⟨S1600000x1, .i32⟩
  | 83 => ⟨S1600000x1, .i1⟩
  | 84 => ⟨S1x1, .i32⟩
  | 85 => ⟨S1600000x1, .i32⟩
  | 86 => ⟨S1600000x1, .i1⟩
  | 87 => ⟨S1600000x1, .i1⟩
  | 88 => ⟨S_, .i1⟩
  | 89 => ⟨S1600000, .i1⟩
  | 90 => ⟨S1600000x32, .f32⟩
  | 91 => ⟨S1600000x32, .i1⟩
  | 92 => ⟨S_, .f32⟩
  | 93 => ⟨S1600000x32, .f32⟩
  | 94 => ⟨S1600000x32, .f32⟩
  | 95 => ⟨S1600000x1, .f32⟩
  | 96 => ⟨S1600000x32, .f32⟩
  | 97 => ⟨S1600000x32, .f32⟩
  | 98 => ⟨S_, .f32⟩
  | 99 => ⟨S100000x32, .f32⟩
  | 100 => ⟨S1600000x1, .i32⟩
  | 101 => ⟨S100000x32, .f32⟩
  | 102 => ⟨S1x32, .f32⟩
  | 103 => ⟨S100000x32, .f32⟩
  | 104 => ⟨S100000x16, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1, .i32⟩
  | 114 => ⟨S_, .i32⟩
  | 115 => ⟨S1600000x1, .i32⟩
  | 116 => ⟨S1600000x1, .i1⟩
  | 117 => ⟨S1x1, .i32⟩
  | 118 => ⟨S1600000x1, .i32⟩
  | 119 => ⟨S1600000x1, .i1⟩
  | 120 => ⟨S1600000x1, .i1⟩
  | 121 => ⟨S_, .i1⟩
  | 122 => ⟨S1600000, .i1⟩
  | 123 => ⟨S1600000x16, .f32⟩
  | 124 => ⟨S1600000x16, .i1⟩
  | 125 => ⟨S_, .f32⟩
  | 126 => ⟨S1600000x16, .f32⟩
  | 127 => ⟨S1600000x16, .f32⟩
  | _ => ⟨S100000x128, .f32⟩

abbrev hbmTy0_1 (i : Nat) : BufTy := match i % 128 with
  | 0 => ⟨S1600000x1, .f32⟩
  | 1 => ⟨S1600000x16, .f32⟩
  | 2 => ⟨S1600000x16, .f32⟩
  | 3 => ⟨S_, .f32⟩
  | 4 => ⟨S100000x16, .f32⟩
  | 5 => ⟨S1600000x1, .i32⟩
  | 6 => ⟨S100000x16, .f32⟩
  | 7 => ⟨S1x16, .f32⟩
  | 8 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v13 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_cst : Ref sig .tc := ⟨.hbm, 67, rfl⟩
abbrev main_call2_v14 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_call3_cst : Ref sig .tc := ⟨.hbm, 92, rfl⟩
abbrev main_call3_v15 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_cst_4 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_call4_c : Ref sig .tc := ⟨.hbm, 105, rfl⟩
abbrev main_call4_v0 : Ref sig .tc := ⟨.hbm, 106, rfl⟩
abbrev main_call4_v1 : Ref sig .tc := ⟨.hbm, 107, rfl⟩
abbrev main_call4_c_0 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_c_1 : Ref sig .tc := ⟨.hbm, 113, rfl⟩
abbrev main_call4_c_2 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_c_3 : Ref sig .tc := ⟨.hbm, 121, rfl⟩
abbrev main_call4_v12 : Ref sig .tc := ⟨.hbm, 122, rfl⟩
abbrev main_call4_v13 : Ref sig .tc := ⟨.hbm, 123, rfl⟩
abbrev main_call4_v14 : Ref sig .tc := ⟨.hbm, 124, rfl⟩
abbrev main_call4_cst : Ref sig .tc := ⟨.hbm, 125, rfl⟩
abbrev main_call4_v15 : Ref sig .tc := ⟨.hbm, 126, rfl⟩
abbrev main_v27 : Ref sig .tc := ⟨.hbm, 127, rfl⟩
abbrev main_v28 : Ref sig .tc := ⟨.hbm, 128, rfl⟩
abbrev main_v29 : Ref sig .tc := ⟨.hbm, 129, rfl⟩
abbrev main_v30 : Ref sig .tc := ⟨.hbm, 130, rfl⟩
abbrev main_cst_5 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S1600000_S1600000x16_0 : S1600000.BroadcastsInDim S1600000x16 (![0] : Fin 1 → Fin S1600000x16.rank)
  bcast_S_S1600000x16 : S_.BroadcastsInDim S1600000x16 (![] : Fin 0 → Fin S1600000x16.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S10000x16_S10000x16 : S10000x16.ShapeCasts S10000x16
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x32_S10000x32_1_0_0_1_n_n_wf : DotDims.WF S10000x128 S128x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x16_S10000x16_1_0_0_1_n_n_wf : DotDims.WF S10000x32 S32x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v25) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S1600000x32 : Shape := ⟨2, ![1600000, 32]⟩
abbrev S1x32 : Shape := ⟨2, ![1, 32]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S1600000x1, .f32⟩
  | .hbm, ⟨56, _⟩ => ⟨S1600000x32, .f32⟩
  | .hbm, ⟨57, _⟩ => ⟨S1600000x32, .f32⟩
  | .hbm, ⟨58, _⟩ => ⟨S_, .f32⟩
  | .hbm, ⟨59, _⟩ => ⟨S100000x32, .f32⟩
  | .hbm, ⟨60, _⟩ => ⟨S1600000x1, .i32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | .hbm, ⟨65, _⟩ => ⟨S_, .f32⟩
  | .hbm, ⟨66, _⟩ => ⟨S100000x32, .f32⟩
  | .hbm, ⟨67, _⟩ => ⟨S100000x32, .f32⟩
  | .hbm, ⟨68, _⟩ => ⟨S100000x16, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x16, .f32⟩
  | .hbm, ⟨78, _⟩ => ⟨S1600000x1, .f32⟩
  | .hbm, ⟨79, _⟩ => ⟨S1600000x16, .f32⟩
  | .hbm, ⟨80, _⟩ => ⟨S1600000x16, .f32⟩
  | .hbm, ⟨81, _⟩ => ⟨S_, .f32⟩
  | .hbm, ⟨82, _⟩ => ⟨S100000x16, .f32⟩
  | .hbm, ⟨83, _⟩ => ⟨S1600000x1, .i32⟩
  | .hbm, ⟨84, _⟩ => ⟨S100000x16, .f32⟩
  | .hbm, ⟨85, _⟩ => ⟨S1x16, .f32⟩
  | .hbm, ⟨86, _⟩ => ⟨S100000x16, .f32⟩
  | .hbm, ⟨87, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call1_cst : Ref sig .tc := ⟨.hbm, 65, rfl⟩
abbrev main_call1_v0 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.TakeDefs.lean ====
/-
  The kernel program's gathers, named. Its three `take`s read a table at an index vector in "fill" mode: the index is
  wrapped once (a negative index `i` reads `i + 100000`), a mask marks the wrapped indices inside `0 .. 99999`, the
  table is gathered at the wrapped index, and a masked-out position is filled with a not-a-number word. The pieces are
  spelt here exactly as the printed host operations spell them, so that a stretch of host operations reads back as one
  of these functions of its inputs.
-/
import proofs.«408000_j5832565588575_2_alg».proof.Proof.Gen.KernelIdeal

noncomputable section

namespace Cert.KernelIdeal.Take

open Cert.KernelIdeal Cert.KernelIdeal.Gen Idealize.ShloMosaic Idealize.ShloMosaic.TcCoe

variable {F : FTy → Type} [FloatOps F]

/-- Row 0 of the edge list: the source node of every edge. -/
def srcOf (E : IVec S2x1600000 32) : IVec S1600000 32 :=
  shapeCast _ (extractStridedSlice S1x1600000 ![0, 0] E slices_S2x1600000_S1x1600000_0_0) shapeCasts_S1x1600000_S1600000

/-- Row 1 of the edge list: the target node of every edge. -/
def dstOf (E : IVec S2x1600000 32) : IVec S1600000 32 :=
  shapeCast _ (extractStridedSlice S1x1600000 ![1, 0] E slices_S2x1600000_S1x1600000_1_0) shapeCasts_S1x1600000_S1600000

/-- A negative index counts from the end: `i < 0` reads `i + 100000`. -/
def wrap (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The wrapped indices as a column of one-component index vectors. -/
def col (idx : IVec S1600000 32) : IVec S1600000x1 32 :=
  broadcastInDim S1600000x1 ![0] bcast_S1600000_S1600000x1_0 (wrap idx)

/-- The mask of the positions whose wrapped index lies in `0 .. 99999`. -/
def inRange (idx : IVec S1600000 32) : IVec S1600000 1 :=
  Host.reduce IntOp.andi
    (andi (cmpi .sge (col idx) (broadcastInDim S1600000x1 ![] bcast_S_S1600000x1 (constantI S_ 32 0#32)))
      (cmpi .sle (col idx) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- A vector of 100000 entries read at the index vector, filled where the index is out of range. -/
def take1 (x : FVec F S100000 .f32) (idx : IVec S1600000 32) : FVec F S1600000 .f32 :=
  select (inRange idx) (Host.gather gather_S100000_S1600000x1_S1600000_n_0_n_n_0_1_1 x (col idx))
    (broadcastInDim S1600000 ![] bcast_S_S1600000 (constant S_ .f32 0x7FC00000#32))

/-- The rows of a 100000 × 32 table read at the index vector, filled where the index is out of range. -/
def take32 (x : FVec F S100000x32 .f32) (idx : IVec S1600000 32) : FVec F S1600000x32 .f32 :=
  select (broadcastInDim S1600000x32 ![0] bcast_S1600000_S1600000x32_0 (inRange idx))
    (Host.gather gather_S100000x32_S1600000x1_S1600000x32_1_0_n_n_0_1_132 x (col idx))
    (broadcastInDim S1600000x32 ![] bcast_S_S1600000x32 (constant S_ .f32 0x7FC00000#32))

/-- The rows of a 100000 × 16 table read at the index vector, filled where the index is out of range. -/
def take16 (x : FVec F S100000x16 .f32) (idx : IVec S1600000 32) : FVec F S1600000x16 .f32 :=
  select (broadcastInDim S1600000x16 ![0] bcast_S1600000_S1600000x16_0 (inRange idx))
    (Host.gather gather_S100000x16_S1600000x1_S1600000x16_1_0_n_n_0_1_116 x (col idx))
    (broadcastInDim S1600000x16 ![] bcast_S_S1600000x16 (constant S_ .f32 0x7FC00000#32))

/-- Every index is a node: as an unsigned word below 100000 (so, read signed, in `0 .. 99999`). -/
def InRange (idx : IVec S1600000 32) : Prop := ∀ j, (idx j).toNat < 100000

end Cert.KernelIdeal.Take

end
-- ==== Proof.GcnSpec.lean ====
/-
  The two-layer graph convolution as ONE function of the six argument arrays, at any float family.
  With `s`, `d` the source and target node of every edge (rows 0 and 1 of the edge list):
    deg   = the number of edges arriving at each node (a sum of ones scattered at `d`),
    dinv  = deg^(-1/2) where deg > 0, else 0,
    nrm   = dinv[s] * dinv[d]                              (one weight per edge),
    agg h = the sum over the edges arriving at a node of h[s] * nrm   (rows gathered at `s`, scattered at `d`),
    out   = agg (max (agg (X · W1) + b1) 0 · W2) + b2.
  A gather index is wrapped once (a negative index counts from the end); a scatter index is not.
  Each piece is spelt as the host operations of both printed programs spell it.
-/
import proofs.«408000_j5832565588575_2_alg».proof.Proof.TakeDefs
import proofs.«408000_j5832565588575_2_alg».proof.Proof.Gen.ReferenceIdeal

noncomputable section

namespace Cert.KernelIdeal.Gcn

open Cert.KernelIdeal Cert.KernelIdeal.Gen Idealize.ShloMosaic Idealize.ShloMosaic.TcCoe

variable {F : FTy → Type} [FloatOps F]

/-- The in-degree of every node: a one for every edge, summed at the edge's target. -/
def deg (d : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- deg^(-1/2) where the degree is positive, else 0. -/
def dinv (d : IVec S1600000 32) : FVec F S100000 .f32 :=
  select (cmpf (F := F) .ogt (deg (F := F) d) (broadcastInDim S100000 ![] bcast_S_S100000 (constant S_ .f32 0x00000000#32)))
    (Host.powf (deg (F := F) d) (broadcastInDim S100000 ![] bcast_S_S100000 (constant S_ .f32 0xBF000000#32)))
    (broadcastInDim S100000 ![] bcast_S_S100000 (id (constant S_ .f32 0x00000000#32)))

/-- The weight of every edge: dinv at its source times dinv at its target. -/
def nrm (s d : IVec S1600000 32) : FVec F S1600000 .f32 :=
  mulf (Host.gather gather_S100000_S1600000x1_S1600000_n_0_n_n_0_1_1 (dinv (F := F) d) (Take.col s))
    (Host.gather gather_S100000_S1600000x1_S1600000_n_0_n_n_0_1_1 (dinv (F := F) d) (Take.col d))

/-- The weighted sum over arriving edges of the source rows of a 100000 × 32 table. -/
def agg32 (h : FVec F S100000x32 .f32) (s d : IVec S1600000 32) : FVec F S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (mulf (Host.gather gather_S100000x32_S1600000x1_S1600000x32_1_0_n_n_0_1_132 h (Take.col s))
      (broadcastInDim S1600000x32 ![0, 1] bcast_S1600000x1_S1600000x32_0_1
        (broadcastInDim S1600000x1 ![0] bcast_S1600000_S1600000x1_0 (nrm (F := F) s d))))

/-- The weighted sum over arriving edges of the source rows of a 100000 × 16 table. -/
def agg16 (h : FVec F S100000x16 .f32) (s d : IVec S1600000 32) : FVec F S100000x16 .f32 :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 d)
    (mulf (Host.gather gather_S100000x16_S1600000x1_S1600000x16_1_0_n_n_0_1_116 h (Take.col s))
      (broadcastInDim S1600000x16 ![0, 1] bcast_S1600000x1_S1600000x16_0_1
        (broadcastInDim S1600000x1 ![0] bcast_S1600000_S1600000x1_0 (nrm (F := F) s d))))

/-- The first layer: max (agg (X · W1) + b1) 0. -/
def layer1 (X : FVec F S100000x128 .f32) (W1 : FVec F S128x32 .f32) (b1 : FVec F S32 .f32) (s d : IVec S1600000 32) :
    FVec F S100000x32 .f32 :=
  maximumf
    (addf (agg32 (Host.dotGeneral Cert.ReferenceIdeal.dot_S100000x128_S128x32_S100000x32_1_0_0_1_n_n none X W1) s d)
      (broadcastInDim S100000x32 ![0, 1] Cert.ReferenceIdeal.Gen.bcast_S1x32_S100000x32_0_1
        (broadcastInDim S1x32 ![1] Cert.ReferenceIdeal.Gen.bcast_S32_S1x32_1 b1)))
    (broadcastInDim S100000x32 ![] bcast_S_S100000x32 (constant S_ .f32 0x00000000#32))

/-- The whole network: agg (layer1 · W2) + b2. -/
def gcnOut (X : FVec F S100000x128 .f32) (E : IVec S2x1600000 32) (W1 : FVec F S128x32 .f32) (b1 : FVec F S32 .f32)
    (W2 : FVec F S32x16 .f32) (b2 : FVec F S16 .f32) : FVec F S100000x16 .f32 :=
  addf
    (agg16 (Host.dotGeneral Cert.ReferenceIdeal.dot_S100000x32_S32x16_S100000x16_1_0_0_1_n_n none
        (layer1 X W1 b1 (Take.srcOf E) (Take.dstOf E)) W2) (Take.srcOf E) (Take.dstOf E))
    (broadcastInDim S100000x16 ![0, 1] Cert.ReferenceIdeal.Gen.bcast_S1x16_S100000x16_0_1
      (broadcastInDim S1x16 ![1] Cert.ReferenceIdeal.Gen.bcast_S16_S1x16_1 b2))

end Cert.KernelIdeal.Gcn

end
-- ==== Proof.RefSpec.lean ====
import proofs.«408000_j5832565588575_2_alg».proof.Proof.RefRun
import proofs.«408000_j5832565588575_2_alg».proof.Proof.GcnSpec
import Idealize.ShloMosaic.PureOps.Ideal

set_option maxRecDepth 16384

noncomputable section

namespace Cert.ReferenceIdeal.RefSpec

open Idealize.ShloMosaic Idealize.ShloMosaic.TcCoe Idealize.SL.Sem
open Cert.ReferenceIdeal

/-! # The reference's composed result is the two-layer graph convolution of its six arguments

The reference program's result, read back as one term of its arguments, and the named function `Gcn.gcnOut` are the same
chain of host operations. They differ only in which of the two printed programs' dimension records they name; the
records of the two programs carry the same dimension numbers, so each pair is equal, and with the six pairs identified
the two terms agree operation for operation. -/

/-! ## The gather and scatter dimension records of the two programs are the same records -/

theorem gather1_eq : Cert.KernelIdeal.gather_S100000_S1600000x1_S1600000_n_0_n_n_0_1_1 = Cert.ReferenceIdeal.gather_S100000_S1600000x1_S1600000_n_0_n_n_0_1_1 := rfl
theorem gather32_eq : Cert.KernelIdeal.gather_S100000x32_S1600000x1_S1600000x32_1_0_n_n_0_1_132 = Cert.ReferenceIdeal.gather_S100000x32_S1600000x1_S1600000x32_1_0_n_n_0_1_132 := rfl
theorem gather16_eq : Cert.KernelIdeal.gather_S100000x16_S1600000x1_S1600000x16_1_0_n_n_0_1_116 = Cert.ReferenceIdeal.gather_S100000x16_S1600000x1_S1600000x16_1_0_n_n_0_1_116 := rfl
theorem scatter1_eq : Cert.KernelIdeal.scatter_S100000_S1600000x1_S1600000_n_0_0_1 = Cert.ReferenceIdeal.scatter_S100000_S1600000x1_S1600000_n_0_0_1 := rfl
theorem scatter32_eq : Cert.KernelIdeal.scatter_S100000x32_S1600000x1_S1600000x32_1_0_0_1 = Cert.ReferenceIdeal.scatter_S100000x32_S1600000x1_S1600000x32_1_0_0_1 := rfl
theorem scatter16_eq : Cert.KernelIdeal.scatter_S100000x16_S1600000x1_S1600000x16_1_0_0_1 = Cert.ReferenceIdeal.scatter_S100000x16_S1600000x1_S1600000x16_1_0_0_1 := rfl

/-! ## The two terms, at any float family -/

/-- The reference's result term is `gcnOut` of the six argument arrays, whatever the float values: every named piece of
    `gcnOut` opened, the six record pairs identified, the two sides are one term up to the proofs of their side facts. -/
theorem res_eq_any {F : FTy → Type} [FloatOps F] (m : (ℓ : Loc nD τ sig) → Buf (Elt F) ℓ) (c : Dev nD) :
    RunP.res_main_v62 (F := F) m c
      = Cert.KernelIdeal.Gcn.gcnOut (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold RunP.res_main_v62 Cert.KernelIdeal.Gcn.gcnOut Cert.KernelIdeal.Gcn.layer1 Cert.KernelIdeal.Gcn.agg16 Cert.KernelIdeal.Gcn.agg32
    Cert.KernelIdeal.Gcn.nrm Cert.KernelIdeal.Gcn.dinv Cert.KernelIdeal.Gcn.deg Cert.KernelIdeal.Take.col Cert.KernelIdeal.Take.wrap
    Cert.KernelIdeal.Take.srcOf Cert.KernelIdeal.Take.dstOf
  rw [gather1_eq, gather32_eq, gather16_eq, scatter1_eq, scatter32_eq, scatter16_eq]

/-! ## At the extended reals -/

/-- The reference's result at the ideal values is `gcnOut` of its six argument arrays. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.RunP.res_main_v62 (F := Ideal) m c
      = Cert.KernelIdeal.Gcn.gcnOut (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) :=
  res_eq_any (F := Ideal) m c

end Cert.ReferenceIdeal.RefSpec

end
-- ==== Proof.PreRange.lean ====
/-
  The index range, read out of the precondition. Its last conjunct is the and-reduction over the whole 2 × 1600000 edge
  list of "the entry is at least 0 and below 100000, read signed"; the precondition states that the conjunction is the
  bit 1, so that conjunct is, so the bit at every entry is, so both comparisons hold at every entry. A 32-bit word that
  read signed lies in 0 .. 99999 is below 100000 read unsigned. Row 0 and row 1 of the edge list read at a position are
  entries of the edge list, so both rows are vectors of node indices.
-/
import proofs.«408000_j5832565588575_2_alg».proof.Defs
import proofs.«408000_j5832565588575_2_alg».proof.Proof.TakeDefs
import proofs.«408000_j5832565588575_2_alg».proof.Proof.Gen.Pre_finite_inputs
import Idealize.ShloMosaic.Lib.ReduceAll

noncomputable section

namespace Cert.KernelIdeal.Take

open Cert.KernelIdeal Cert.KernelIdeal.Gen Idealize.ShloMosaic Idealize.ShloMosaic.TcCoe

/-- A shape of rank zero has one index. -/
instance subsingleton_idx_S_ : Subsingleton S_.Idx := ⟨fun _ _ => funext fun d => d.elim0⟩

/-- A 32-bit word that read signed is at least 0 and below 100000 is below 100000 read unsigned. -/
theorem toNat_lt_of_signed {a : BitVec 32} (h0 : IntOp.cmpi .sge a 0#32 = 1#1) (h1 : IntOp.cmpi .slt a 100000#32 = 1#1) :
    a.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  have hlt := a.isLt
  rw [BitVec.toInt_eq_toNat_cond] at h0 h1
  split at h0 <;> omega

variable (m : (ℓ : Loc nD τ sig) → Buf (Elt Ideal) ℓ)

/-- Under the precondition every entry of the edge list is below 100000 read unsigned. -/
theorem entry_lt_of_pre (hpre : Cert.Pre_KernelIdeal m) (c : Dev nD) (i : S2x1600000.Idx) :
    (m ((c.tc : Thread nD τ).loc main_arg1) i).toNat < 100000 := by
  have h := congrFun (hpre c) (fun d => d.elim0)
  dsimp only [Cert.Pre_finite_inputs.fn, Cert.Pre_finite_inputs.fn_part1] at h
  have hr := (IntOp.andi_eq_one.1 h).2
  have hi := Host.reduce_andi_all _ _ _ _ _ hr i
  obtain ⟨h0, h1⟩ := IntOp.andi_eq_one.1 hi
  exact toNat_lt_of_signed h0 h1

/-- Under the precondition the sources of the edges are node indices. -/
theorem inRange_src_of_pre (hpre : Cert.Pre_KernelIdeal m) (c : Dev nD) :
    InRange (srcOf (m ((c.tc : Thread nD τ).loc main_arg1))) :=
  fun _ => entry_lt_of_pre m hpre c _

/-- Under the precondition the targets of the edges are node indices. -/
theorem inRange_dst_of_pre (hpre : Cert.Pre_KernelIdeal m) (c : Dev nD) :
    InRange (dstOf (m ((c.tc : Thread nD τ).loc main_arg1))) :=
  fun _ => entry_lt_of_pre m hpre c _

end Cert.KernelIdeal.Take

end
-- ==== Proof.StagesA.lean ====
/-
  The first two stretches of host operations of the kernel program, read at ANY buffer contents `Wp` they start from.
  The first stretch splits the edge list into its source and target rows, counts the edges arriving at each node
  (the degree, a scatter of ones), and prepares the test `deg > 0`, the power `deg^(-1/2)` and a zero; the second
  selects between the power and the zero: the inverse square root of the degree, zero at an isolated node.
-/
import proofs.«408000_j5832565588575_2_alg».proof.Proof.Gen.KernelIdeal.Launch
import proofs.«408000_j5832565588575_2_alg».proof.Proof.GcnSpec
import Idealize.ShloMosaic.Lib.StableHlo.Run

set_option maxRecDepth 16384

noncomputable section

namespace Cert.KernelIdeal.StagesA

open Cert.KernelIdeal Cert.KernelIdeal.Gen Idealize.ShloMosaic Idealize.ShloMosaic.TcCoe Idealize.SL.Sem Idealize.ShloMosaic.StableHlo

/-- A buffer that a stretch of host operations does not write holds after the stretch what it held before. -/
local macro "pass_thm " n:ident ops:ident b:ident : command =>
  `(theorem $n {F : FTy → Type} [FloatOps F] (Wp : Valuation τ sig (Elt F)) :
      StableHlo.after ($ops : List (HloOp τ sig (Elt F))) Wp (Proc.devRef .tc $b) = Wp (Proc.devRef .tc $b) := by
    after_results_simp <;> rfl)

variable {F : FTy → Type} [FloatOps F]

/-! ## The first stretch -/

theorem h0_v1 (Wp : Valuation τ sig (Elt F)) :
    StableHlo.after (hostOps0 : List (HloOp τ sig (Elt F))) Wp (Proc.devRef .tc main_v1) = Take.srcOf (Wp (Proc.devRef .tc main_arg1)) := by
  after_results_simp <;> rfl

theorem h0_v3 (Wp : Valuation τ sig (Elt F)) :
    StableHlo.after (hostOps0 : List (HloOp τ sig (Elt F))) Wp (Proc.devRef .tc main_v3) = Take.dstOf (Wp (Proc.devRef .tc main_arg1)) := by
  after_results_simp <;> rfl

theorem h0_v9 (Wp : Valuation τ sig (Elt F)) :
    StableHlo.after (hostOps0 : List (HloOp τ sig (Elt F))) Wp (Proc.devRef .tc main_v9)
    = cmpf (F := F) .ogt (Gcn.deg (F := F) (Take.dstOf (Wp (Proc.devRef .tc main_arg1))))
        (broadcastInDim S100000 ![] bcast_S_S100000 (constant S_ .f32 0x00000000#32)) := by
  after_results_simp <;> rfl

theorem h0_v11 (Wp : Valuation τ sig (Elt F)) :
    StableHlo.after (hostOps0 : List (HloOp τ sig (Elt F))) Wp (Proc.devRef .tc main_v11)
    = Host.powf (Gcn.deg (F := F) (Take.dstOf (Wp (Proc.devRef .tc main_arg1))))
        (broadcastInDim S100000 ![] bcast_S_S100000 (constant S_ .f32 0xBF000000#32)) := by
  after_results_simp <;> rfl

theorem h0_cst3 (Wp : Valuation τ sig (Elt F)) :
    StableHlo.after (hostOps0 : List (HloOp τ sig (Elt F))) Wp (Proc.devRef .tc main_cst_3) = constant S_ .f32 0x00000000#32 := by
  after_results_simp <;> rfl

pass_thm p0_arg0 hostOps0 main_arg0
pass_thm p0_arg2 hostOps0 main_arg2
pass_thm p0_arg3 hostOps0 main_arg3
pass_thm p0_arg4 hostOps0 main_arg4
pass_thm p0_arg5 hostOps0 main_arg5

/-! ## The second stretch -/

theorem h01_v12 (Wp : Valuation τ sig (Elt F)) :
    StableHlo.after (hostOps0_1 : List (HloOp τ sig (Elt F))) Wp (Proc.devRef .tc main_v12)
    = select (Wp (Proc.devRef .tc main_v9)) (Wp (Proc.devRef .tc main_v11))
        (broadcastInDim S100000 ![] bcast_S_S100000 (id (Wp (Proc.devRef .tc main_cst_3)))) := by
  after_results_simp <;> rfl

pass_thm p01_v1 hostOps0_1 main_v1
pass_thm p01_v3 hostOps0_1 main_v3
pass_thm p01_arg0 hostOps0_1 main_arg0
pass_thm p01_arg2 hostOps0_1 main_arg2
pass_thm p01_arg3 hostOps0_1 main_arg3
pass_thm p01_arg4 hostOps0_1 main_arg4
pass_thm p01_arg5 hostOps0_1 main_arg5

end Cert.KernelIdeal.StagesA

end
-- ==== Proof.StagesB.lean ====
/-
  The third, fourth and fifth stretches of host operations of the kernel program, read at ANY buffer contents `Wp`
  they start from: the inverse-root degrees read at the source nodes, then at the target nodes (two fill-mode
  takes), then their product, the weight of every edge.
-/
import proofs.«408000_j5832565588575_2_alg».proof.Proof.Gen.KernelIdeal.Launch
import proofs.«408000_j5832565588575_2_alg».proof.Proof.GcnSpec
import Idealize.ShloMosaic.Lib.StableHlo.Run

set_option maxRecDepth 16384

noncomputable section

namespace Cert.KernelIdeal.StagesB

open Cert.KernelIdeal Cert.KernelIdeal.Gen Idealize.ShloMosaic Idealize.ShloMosaic.TcCoe Idealize.SL.Sem Idealize.ShloMosaic.StableHlo

/-- A buffer that a stretch of host operations does not write holds after the stretch what it held before. -/
local macro "pass_thm " n:ident ops:ident b:ident : command =>
  `(theorem $n {F : FTy → Type} [FloatOps F] (Wp : Valuation τ sig (Elt F)) :
      StableHlo.after ($ops : List (HloOp τ sig (Elt F))) Wp (Proc.devRef .tc $b) = Wp (Proc.devRef .tc $b) := by
    after_results_simp <;> rfl)

variable {F : FTy → Type} [FloatOps F]

/-- Transporting a value along an equation of types, and back along any equation the other way, gives the value back. -/
theorem cast_roundtrip {α β : Sort _} (h : α = β) (h' : β = α) (v : α) : cast h' (cast h v) = v := by
  subst h; rfl

/-! ## The third stretch: the table read at the sources -/

set_option maxHeartbeats 1000000 in
theorem h02_v13 (Wp : Valuation τ sig (Elt F)) :
    StableHlo.after (hostOps0_2 : List (HloOp τ sig (Elt F))) Wp (Proc.devRef .tc main_v13)
    = Take.take1 (Wp (Proc.devRef .tc main_v12)) (Wp (Proc.devRef .tc main_v1)) := by
  after_results_simp
  simp only [cast_roundtrip]
  have eIdx : (TRef.of (T := ⟨S1600000, .i32⟩) main_v1).ofBuf (Wp (Proc.devRef .tc main_v1)) = Wp (Proc.devRef .tc main_v1) :=
    eq_of_heq (cast_heq _ _)
  have eTbl : (TRef.of (T := ⟨S100000, .f32⟩) main_v12).ofBuf (Wp (Proc.devRef .tc main_v12)) = Wp (Proc.devRef .tc main_v12) :=
    eq_of_heq (cast_heq _ _)
  rw [eIdx, eTbl]
  unfold Take.take1 Take.inRange Take.col Take.wrap
  exact eq_of_heq (cast_heq _ _)

pass_thm p02_v1 hostOps0_2 main_v1
pass_thm p02_v3 hostOps0_2 main_v3
pass_thm p02_v12 hostOps0_2 main_v12
pass_thm p02_arg0 hostOps0_2 main_arg0
pass_thm p02_arg2 hostOps0_2 main_arg2
pass_thm p02_arg3 hostOps0_2 main_arg3
pass_thm p02_arg4 hostOps0_2 main_arg4
pass_thm p02_arg5 hostOps0_2 main_arg5

/-! ## The fourth stretch: the table read at the targets -/

set_option maxHeartbeats 1000000 in
theorem h03_v14 (Wp : Valuation τ sig (Elt F)) :
    StableHlo.after (hostOps0_3 : List (HloOp τ sig (Elt F))) Wp (Proc.devRef .tc main_v14)
    = Take.take1 (Wp (Proc.devRef .tc main_v12)) (Wp (Proc.devRef .tc main_v3)) := by
  after_results_simp
  simp only [cast_roundtrip]
  have eIdx : (TRef.of (T := ⟨S1600000, .i32⟩) main_v3).ofBuf (Wp (Proc.devRef .tc main_v3)) = Wp (Proc.devRef .tc main_v3) :=
    eq_of_heq (cast_heq _ _)
  have eTbl : (TRef.of (T := ⟨S100000, .f32⟩) main_v12).ofBuf (Wp (Proc.devRef .tc main_v12)) = Wp (Proc.devRef .tc main_v12) :=
    eq_of_heq (cast_heq _ _)
  rw [eIdx, eTbl]
  unfold Take.take1 Take.inRange Take.col Take.wrap
  exact eq_of_heq (cast_heq _ _)

pass_thm p03_v1 hostOps0_3 main_v1
pass_thm p03_v3 hostOps0_3 main_v3
pass_thm p03_v13 hostOps0_3 main_v13
pass_thm p03_arg0 hostOps0_3 main_arg0
pass_thm p03_arg2 hostOps0_3 main_arg2
pass_thm p03_arg3 hostOps0_3 main_arg3
pass_thm p03_arg4 hostOps0_3 main_arg4
pass_thm p03_arg5 hostOps0_3 main_arg5

/-! ## The fifth stretch: the edge weights -/

theorem h04_v15 (Wp : Valuation τ sig (Elt F)) :
    StableHlo.after (hostOps0_4 : List (HloOp τ sig (Elt F))) Wp (Proc.devRef .tc main_v15)
    = mulf (Wp (Proc.devRef .tc main_v13)) (Wp (Proc.devRef .tc main_v14)) := by
  after_results_simp <;> rfl

pass_thm p04_v1 hostOps0_4 main_v1
pass_thm p04_v3 hostOps0_4 main_v3
pass_thm p04_arg0 hostOps0_4 main_arg0
pass_thm p04_arg2 hostOps0_4 main_arg2
pass_thm p04_arg3 hostOps0_4 main_arg3
pass_thm p04_arg4 hostOps0_4 main_arg4
pass_thm p04_arg5 hostOps0_4 main_arg5

end Cert.KernelIdeal.StagesB

end
-- ==== Proof.StagesC.lean ====
/-
  The stretches of host operations between the kernel regions, read at ANY buffer contents `Wp` they start from.
  After each matrix product: its rows read at the source nodes (a fill-mode take); then those rows scaled by the edge
  weights and summed at the target nodes (a scatter-add into zeros), and the layer's bias reshaped to one row.
-/
import proofs.«408000_j5832565588575_2_alg».proof.Proof.Gen.KernelIdeal.Launch
import proofs.«408000_j5832565588575_2_alg».proof.Proof.GcnSpec
import Idealize.ShloMosaic.Lib.StableHlo.Run

set_option maxRecDepth 16384

noncomputable section

namespace Cert.KernelIdeal.StagesC

open Cert.KernelIdeal Cert.KernelIdeal.Gen Idealize.ShloMosaic Idealize.ShloMosaic.TcCoe Idealize.SL.Sem Idealize.ShloMosaic.StableHlo

/-- A buffer that a stretch of host operations does not write holds after the stretch what it held before. -/
local macro "pass_thm " n:ident ops:ident b:ident : command =>
  `(theorem $n {F : FTy → Type} [FloatOps F] (Wp : Valuation τ sig (Elt F)) :
      StableHlo.after ($ops : List (HloOp τ sig (Elt F))) Wp (Proc.devRef .tc $b) = Wp (Proc.devRef .tc $b) := by
    after_results_simp <;> rfl)

variable {F : FTy → Type} [FloatOps F]

/-- Transporting a value along an equation of types, and back along any equation the other way, gives the value back. -/
theorem cast_roundtrip {α β : Sort _} (h : α = β) (h' : β = α) (v : α) : cast h' (cast h v) = v := by
  subst h; rfl

/-! ## After the first product -/

set_option maxHeartbeats 1000000 in
theorem h1_v17 (Wp : Valuation τ sig (Elt F)) :
    StableHlo.after (hostOps1 : List (HloOp τ sig (Elt F))) Wp (Proc.devRef .tc main_v17)
    = Take.take32 (Wp (Proc.devRef .tc main_v16)) (Wp (Proc.devRef .tc main_v1)) := by
  after_results_simp
  simp only [cast_roundtrip]
  have eIdx : (TRef.of (T := ⟨S1600000, .i32⟩) main_v1).ofBuf (Wp (Proc.devRef .tc main_v1)) = Wp (Proc.devRef .tc main_v1) :=
    eq_of_heq (cast_heq _ _)
  have eTbl : (TRef.of (T := ⟨S100000x32, .f32⟩) main_v16).ofBuf (Wp (Proc.devRef .tc main_v16)) = Wp (Proc.devRef .tc main_v16) :=
    eq_of_heq (cast_heq _ _)
  rw [eIdx, eTbl]
  unfold Take.take32 Take.inRange Take.col Take.wrap
  exact eq_of_heq (cast_heq _ _)

pass_thm p1_v1 hostOps1 main_v1
pass_thm p1_v3 hostOps1 main_v3
pass_thm p1_v15 hostOps1 main_v15
pass_thm p1_arg3 hostOps1 main_arg3
pass_thm p1_arg4 hostOps1 main_arg4
pass_thm p1_arg5 hostOps1 main_arg5

theorem h11_v23 (Wp : Valuation τ sig (Elt F)) :
    StableHlo.after (hostOps1_1 : List (HloOp τ sig (Elt F))) Wp (Proc.devRef .tc main_v23)
    = Host.scatterAdd scatter_S100000x32_S1600000x1_S1600000x32_1_0_0_1
        (broadcastInDim S100000x32 ![] bcast_S_S100000x32 (constant S_ .f32 0x00000000#32))
        (broadcastInDim S1600000x1 ![0] bcast_S1600000_S1600000x1_0 (Wp (Proc.devRef .tc main_v3)))
        (mulf (Wp (Proc.devRef .tc main_v17))
          (broadcastInDim S1600000x32 ![0, 1] bcast_S1600000x1_S1600000x32_0_1
            (broadcastInDim S1600000x1 ![0] bcast_S1600000_S1600000x1_0 (Wp (Proc.devRef .tc main_v15))))) := by
  after_results_simp <;> rfl

theorem h11_v24 (Wp : Valuation τ sig (Elt F)) :
    StableHlo.after (hostOps1_1 : List (HloOp τ sig (Elt F))) Wp (Proc.devRef .tc main_v24)
    = shapeCast _ (Wp (Proc.devRef .tc main_arg3)) shapeCasts_S32_S1x32 := by
  after_results_simp <;> rfl

pass_thm p11_v1 hostOps1_1 main_v1
pass_thm p11_v3 hostOps1_1 main_v3
pass_thm p11_v15 hostOps1_1 main_v15
pass_thm p11_arg4 hostOps1_1 main_arg4
pass_thm p11_arg5 hostOps1_1 main_arg5

/-! ## After the second product -/

set_option maxHeartbeats 1000000 in
theorem h3_v27 (Wp : Valuation τ sig (Elt F)) :
    StableHlo.after (hostOps3 : List (HloOp τ sig (Elt F))) Wp (Proc.devRef .tc main_v27)
    = Take.take16 (Wp (Proc.devRef .tc main_v26)) (Wp (Proc.devRef .tc main_v1)) := by
  after_results_simp
  simp only [cast_roundtrip]
  have eIdx : (TRef.of (T := ⟨S1600000, .i32⟩) main_v1).ofBuf (Wp (Proc.devRef .tc main_v1)) = Wp (Proc.devRef .tc main_v1) :=
    eq_of_heq (cast_heq _ _)
  have eTbl : (TRef.of (T := ⟨S100000x16, .f32⟩) main_v26).ofBuf (Wp (Proc.devRef .tc main_v26)) = Wp (Proc.devRef .tc main_v26) :=
    eq_of_heq (cast_heq _ _)
  rw [eIdx, eTbl]
  unfold Take.take16 Take.inRange Take.col Take.wrap
  exact eq_of_heq (cast_heq _ _)

pass_thm p3_v3 hostOps3 main_v3
pass_thm p3_v15 hostOps3 main_v15
pass_thm p3_arg5 hostOps3 main_arg5

theorem h31_v33 (Wp : Valuation τ sig (Elt F)) :
    StableHlo.after (hostOps3_1 : List (HloOp τ sig (Elt F))) Wp (Proc.devRef .tc main_v33)
    = Host.scatterAdd scatter_S100000x16_S1600000x1_S1600000x16_1_0_0_1
        (broadcastInDim S100000x16 ![] bcast_S_S100000x16 (constant S_ .f32 0x00000000#32))
        (broadcastInDim S1600000x1 ![0] bcast_S1600000_S1600000x1_0 (Wp (Proc.devRef .tc main_v3)))
        (mulf (Wp (Proc.devRef .tc main_v27))
          (broadcastInDim S1600000x16 ![0, 1] bcast_S1600000x1_S1600000x16_0_1
            (broadcastInDim S1600000x1 ![0] bcast_S1600000_S1600000x1_0 (Wp (Proc.devRef .tc main_v15))))) := by
  after_results_simp <;> rfl

theorem h31_v34 (Wp : Valuation τ sig (Elt F)) :
    StableHlo.after (hostOps3_1 : List (HloOp τ sig (Elt F))) Wp (Proc.devRef .tc main_v34)
    = shapeCast _ (Wp (Proc.devRef .tc main_arg5)) shapeCasts_S16_S1x16 := by
  after_results_simp <;> rfl

end Cert.KernelIdeal.StagesC

end
-- ==== Proof.TakeMask.lean ====
/-
  Every index a node: the mask of the fill-mode reads is all ones, so each such read is the plain gather.

  Under `InRange idx` every word of `idx` is below 100000 read unsigned, hence below 2 ^ 31: read signed it is not
  negative, so the wrap leaves it alone, and it lies in `0 .. 99999`. Both comparisons of the mask then hold at every
  position, the and-reduction of an all-ones array from the bit 1 is the bit 1, and a select on the bit 1 is its first
  branch.
-/
import proofs.«408000_j5832565588575_2_alg».proof.Proof.TakeDefs
import Idealize.ShloMosaic.Lib.StableHlo.Predicate
import Idealize.ShloMosaic.Lib.ReduceAll

noncomputable section

namespace Cert.KernelIdeal.Take

open Cert.KernelIdeal Cert.KernelIdeal.Gen Idealize.ShloMosaic Idealize.ShloMosaic.TcCoe

variable {F : FTy → Type} [FloatOps F]

/-- A left fold by `and` from the bit 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- An and-reduction of an all-ones array from the bit 1 is all ones. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun i _ => hx i

/-- The wrap leaves a node index alone: read signed it is not negative. -/
theorem wrap_apply (idx : IVec S1600000 32) (h : InRange idx) (k : S1600000.Idx) : wrap idx k = idx k := by
  have hk := h k
  have hc : ¬ IntOp.cmpi .slt (idx k) 0#32 = 1#1 := by
    rw [StableHlo.Predicate.slt_iff_toNat (by omega) (by decide)]
    exact Nat.not_lt_zero _
  show Scalar.select (IntOp.cmpi .slt (idx k) 0#32) (IntOp.addi (idx k) 100000#32) (idx k) = idx k
  exact if_neg hc

/-- Every entry of the column of wrapped indices is an entry of the index vector. -/
theorem col_apply (idx : IVec S1600000 32) (h : InRange idx) (i : S1600000x1.Idx) : ∃ k, col idx i = idx k :=
  ⟨_, wrap_apply idx h _⟩

/-- The mask of a vector of node indices is all ones. -/
theorem inRange_ones (idx : IVec S1600000 32) (h : InRange idx) : inRange idx = fun _ => 1#1 := by
  funext j
  refine reduce_andi_ones _ _ _ _ rfl (fun i => ?_) j
  obtain ⟨k, hk⟩ := col_apply idx h i
  have hlt := h k
  show IntOp.andi (IntOp.cmpi .sge (col idx i) 0#32) (IntOp.cmpi .sle (col idx i) 99999#32) = 1#1
  rw [hk]
  have h9 : (99999#32 : BitVec 32).toNat = 99999 := by decide
  refine IntOp.andi_eq_one.2 ⟨?_, ?_⟩
  · rw [StableHlo.Predicate.sge_iff_toNat (by omega) (by decide)]
    exact Nat.zero_le _
  · rw [StableHlo.Predicate.sle_iff_toNat (by omega) (by decide), h9]
    omega

/-- At node indices the fill-mode read of a vector is the plain gather. -/
theorem take1_eq (x : FVec F S100000 .f32) (idx : IVec S1600000 32) (h : InRange idx) :
    take1 x idx = Host.gather gather_S100000_S1600000x1_S1600000_n_0_n_n_0_1_1 x (col idx) := by
  funext j
  unfold take1
  rw [inRange_ones idx h]
  show Scalar.select 1#1 _ _ = _
  exact if_pos rfl

/-- At node indices the fill-mode read of the rows of a 100000 × 32 table is the plain gather. -/
theorem take32_eq (x : FVec F S100000x32 .f32) (idx : IVec S1600000 32) (h : InRange idx) :
    take32 x idx = Host.gather gather_S100000x32_S1600000x1_S1600000x32_1_0_n_n_0_1_132 x (col idx) := by
  funext j
  unfold take32
  rw [inRange_ones idx h]
  show Scalar.select 1#1 _ _ = _
  exact if_pos rfl

/-- At node indices the fill-mode read of the rows of a 100000 × 16 table is the plain gather. -/
theorem take16_eq (x : FVec F S100000x16 .f32) (idx : IVec S1600000 32) (h : InRange idx) :
    take16 x idx = Host.gather gather_S100000x16_S1600000x1_S1600000x16_1_0_n_n_0_1_116 x (col idx) := by
  funext j
  unfold take16
  rw [inRange_ones idx h]
  show Scalar.select 1#1 _ _ = _
  exact if_pos rfl

end Cert.KernelIdeal.Take

end
-- ==== Proof.RegionMatmul0.lean ====
/- The first matrix-product region of the two-layer graph convolution, read as one whole-array function.
   The region's grid has 10 points; point t takes rows 10000 t .. 10000 t + 9999 of the left matrix X (100000 x 128),
   the whole right matrix W (128 x 32), and writes rows 10000 t .. 10000 t + 9999 of the output (100000 x 32). At the
   extended reals the format changes are the identity and the product into a zero accumulator is the plain sum, so
   each point writes its block of  i ↦ ∑ k, X (i 0, k) * W (k, i 1)  (`pay_apply`, `flushed_eq`); the 10 blocks cover the
   output (`cover`), so the output array after the region is that function (`arr_eq`, `arr_sum`). The reference's host
   product at an index is the same sum (`ref_sum`), hence the output array is the reference's product of the two input
   arrays (`arr_out`). -/
import proofs.«408000_j5832565588575_2_alg».proof.Proof.Gen.KernelIdeal.Frame
import proofs.«408000_j5832565588575_2_alg».proof.Proof.Gen.ReferenceIdeal
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.RegionMatmul0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The two input arrays and their product -/

/-- The left matrix: the first input array as the region finds it. -/
abbrev xarr (c : Dev nD) : FVec Ideal S100000x128 .f32 := V c (Pipeline.arrRef spec0 0)
/-- The right matrix: the second input array as the region finds it. -/
abbrev warr (c : Dev nD) : FVec Ideal S128x32 .f32 := V c (Pipeline.arrRef spec0 1)

/-- The product of a 100000 x 128 matrix and a 128 x 32 matrix, entry by entry: row times column. -/
def matProd (X : FVec Ideal S100000x128 .f32) (W : FVec Ideal S128x32 .f32) : FVec Ideal S100000x32 .f32 :=
  fun i => ∑ k : Fin 128, X (ix2 (i 0) k) * W (ix2 k (i 1))

/-! ## The body's product of two blocks, at an entry -/

/-- The body's contraction: axis 1 of the left block against axis 0 of the right. -/
abbrev blkDot : DotDims S10000x128 S128x32 S10000x32 := dot_S10000x128_S128x32_S10000x32_1_0_0_1_n_n

theorem blkDot_rank : blkDot.contr.rank = 1 := rfl
theorem blkDot_size : blkDot.contr.size ⟨0, by rw [blkDot_rank]; exact Nat.one_pos⟩ = 128 := rfl

theorem blkDot_lhs0 (j : S10000x32.Idx) (k : blkDot.contr.Idx) : (blkDot.lhsIdx j k 0).val = (j 0).val := by
  simp [DotDims.lhsIdx, blkDot, dot_S10000x128_S128x32_S10000x32_1_0_0_1_n_n]
  rfl
theorem blkDot_lhs1 (j : S10000x32.Idx) (k : blkDot.contr.Idx) :
    (blkDot.lhsIdx j k 1).val = (k ⟨0, by rw [blkDot_rank]; exact Nat.one_pos⟩).val :=
  blkDot.lhsIdx_val_of_single rfl j k
theorem blkDot_rhs0 (j : S10000x32.Idx) (k : blkDot.contr.Idx) :
    (blkDot.rhsIdx j k 0).val = (k ⟨0, by rw [blkDot_rank]; exact Nat.one_pos⟩).val :=
  blkDot.rhsIdx_val_of_single rfl j k
theorem blkDot_rhs1 (j : S10000x32.Idx) (k : blkDot.contr.Idx) : (blkDot.rhsIdx j k 1).val = (j 1).val := by
  simp [DotDims.rhsIdx, blkDot, dot_S10000x128_S128x32_S10000x32_1_0_0_1_n_n]
  rfl

/-- The body's payload at entry (p, q): row p of the left block times column q of the right block. The format
    changes are the identity on the extended reals and the accumulator is zero. -/
theorem pay_apply (x : Vec Ideal S10000x128 .f32) (w : Vec Ideal S128x32 .f32) (p : Fin 10000) (q : Fin 32) :
    k0_pay1 (F := Ideal) x w (ix2 p q) = ∑ k : Fin 128, x (ix2 p k) * w (ix2 k q) := by
  unfold k0_pay1
  refine (Ideal.matmul_constant_zero_apply blkDot none _ _ (ix2 p q)).trans ?_
  rw [← Equiv.sum_comp (contrEquiv1 blkDot 128 blkDot_rank blkDot_size).symm]
  refine Finset.sum_congr rfl fun k _ => ?_
  have ck := contrEquiv1_symm_val blkDot 128 blkDot_rank blkDot_size k
  have l : blkDot.lhsIdx (ix2 p q) ((contrEquiv1 blkDot 128 blkDot_rank blkDot_size).symm k) = ix2 p k := by
    funext a; apply Fin.ext
    match a with
    | ⟨0, _⟩ => exact blkDot_lhs0 _ _
    | ⟨1, _⟩ => exact (blkDot_lhs1 _ _).trans ck
  have r : blkDot.rhsIdx (ix2 p q) ((contrEquiv1 blkDot 128 blkDot_rank blkDot_size).symm k) = ix2 k q := by
    funext a; apply Fin.ext
    match a with
    | ⟨0, _⟩ => exact (blkDot_rhs0 _ _).trans ck
    | ⟨1, _⟩ => exact blkDot_rhs1 _ _
  show x (blkDot.lhsIdx (ix2 p q) _) * w (blkDot.rhsIdx (ix2 p q) _) = _
  rw [l, r]

/-! ## The blocks of the grid -/

theorem hz : (![0, 0] : Fin 2 → Nat) = fun _ => 0 := funext fun a => by fin_cases a <;> rfl

/-- The printed index maps over the 10 grid points: the left matrix's and the output's blocks are block row t, all
    columns; the right matrix is read whole at every point. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The left block at point t is rows 10000 t .. 10000 t + 9999 of the left matrix. -/
theorem xblk_apply (c : Dev nD) (t : Fin cfg0.N) (p : Fin 10000) (k : Fin 128) (p' : Fin 100000)
    (hp : p'.val = t.val * 10000 + p.val) :
    (iblk0 V c 0 t : Vec Ideal S10000x128 .f32) (ix2 p k) = xarr V c (ix2 p' k) := by
  obtain ⟨e0, e1, e2, e3, e4, e5⟩ := idx_facts t
  show V c (Pipeline.arrRef spec0 0) (((cfg0.win 0).blk t).view.emb (ix2 p k)) = V c (Pipeline.arrRef spec0 0) (ix2 p' k)
  refine congrArg (V c (Pipeline.arrRef spec0 0)) ?_
  funext a; apply Fin.ext
  match a with
  | ⟨0, _⟩ => show win0_0.index t (0 : Fin 2) * 10000 + 1 * p.val = p'.val; omega
  | ⟨1, _⟩ => show win0_0.index t (1 : Fin 2) * 128 + 1 * k.val = k.val; omega

/-- The right block at every point is the right matrix. -/
theorem wblk_apply (c : Dev nD) (t : Fin cfg0.N) (k : Fin 128) (q : Fin 32) :
    (iblk0 V c 1 t : Vec Ideal S128x32 .f32) (ix2 k q) = warr V c (ix2 k q) := by
  obtain ⟨e0, e1, e2, e3, e4, e5⟩ := idx_facts t
  show V c (Pipeline.arrRef spec0 1) (((cfg0.win 1).blk t).view.emb (ix2 k q)) = V c (Pipeline.arrRef spec0 1) (ix2 k q)
  refine congrArg (V c (Pipeline.arrRef spec0 1)) ?_
  funext a; apply Fin.ext
  match a with
  | ⟨0, _⟩ => show win0_1.index t (0 : Fin 2) * 128 + 1 * k.val = k.val; omega
  | ⟨1, _⟩ => show win0_1.index t (1 : Fin 2) * 32 + 1 * q.val = q.val; omega

/-- Entry (p, q) of the output block at point t sits at row 10000 t + p, column q of the output array. -/
theorem oblk_emb (t : Fin cfg0.N) (p : Fin 10000) (q : Fin 32) (p' : Fin 100000) (hp : p'.val = t.val * 10000 + p.val) :
    ((cfg0.win 2).blk t).view.emb (ix2 p q) = (ix2 p' q : S100000x32.Idx) := by
  obtain ⟨e0, e1, e2, e3, e4, e5⟩ := idx_facts t
  funext a; apply Fin.ext
  match a with
  | ⟨0, _⟩ => show win0_2.index t (0 : Fin 2) * 10000 + 1 * p.val = p'.val; omega
  | ⟨1, _⟩ => show win0_2.index t (1 : Fin 2) * 32 + 1 * q.val = q.val; omega

/-- What the body leaves at a point, entry by entry, over any two blocks that are those rows of X and all of W. -/
theorem block_entry (X : FVec Ideal S100000x128 .f32) (W : FVec Ideal S128x32 .f32)
    (x : Vec Ideal S10000x128 .f32) (w : Vec Ideal S128x32 .f32) (r : ℕ)
    (hx : ∀ (p : Fin 10000) (k : Fin 128) (p' : Fin 100000), p'.val = r * 10000 + p.val → x (ix2 p k) = X (ix2 p' k))
    (hw : ∀ (k : Fin 128) (q : Fin 32), w (ix2 k q) = W (ix2 k q))
    (p : Fin 10000) (q : Fin 32) (p' : Fin 100000) (hp : p'.val = r * 10000 + p.val) :
    k0_pay1 (F := Ideal) x w (ix2 p q) = matProd X W (ix2 p' q) := by
  rw [pay_apply]
  unfold matProd
  exact Finset.sum_congr rfl fun k _ => by rw [hx p k p' hp, hw k q]

/-- WHAT POINT t WRITES BACK is block t of the product of the two input arrays. -/
theorem flushed_eq (c : Dev nD) (t : Fin cfg0.N) :
    (dat0 V c).flushed 2 t = ((cfg0.win 2).blk t).view.read (Elt Ideal) (matProd (xarr V c) (warr V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  funext j
  obtain ⟨p, q, rfl⟩ : ∃ (p : Fin 10000) (q : Fin 32), j = ix2 p q := ⟨j 0, j 1, eq_ix2 j⟩
  have ht : t.val < 10 := lt_of_lt_of_eq t.isLt N_0
  show k0_pay1 (F := Ideal) (iblk0 V c 0 t) (iblk0 V c 1 t) (ix2 p q) = matProd (xarr V c) (warr V c) (((cfg0.win 2).blk t).view.emb (ix2 p q))
  rw [oblk_emb t p q ⟨t.val * 10000 + p.val, by have := p.isLt; omega⟩ rfl]
  exact block_entry (xarr V c) (warr V c) _ _ t.val (fun p k p' hp => xblk_apply V c t p k p' hp)
    (fun k q => wblk_apply V c t k q) p q _ rfl

/-- An index of the output array is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v16).slice (win0_2.rect t)).set ↔ _
  rw [View.set_slice_whole, Rect.mem_set_unit]
  exact Iff.rfl

/-- Every index of the output array is in some point's block: row r is in block row r / 10000, every column in every block. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 10 := N_0
  obtain ⟨t, ht⟩ : ∃ t : Fin cfg0.N, t.val = (i 0).val / 10000 := ⟨⟨(i 0).val / 10000, lt_of_lt_of_eq (by omega : (i 0).val / 10000 < 10) hN.symm⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-! ## The output array after the region -/

/-- The output array after the region is the product of the two input arrays. -/
theorem arr_eq (c : Dev nD) : (dat0 V c).arrAt 2 cfg0.N = matProd (xarr V c) (warr V c) :=
  (dat0 V c).arrAt_eq_of_cover 2 (matProd (xarr V c) (warr V c)) (fun t _ => flushed_eq V c t) cover

/-- The output array after the region, at an index: row times column. -/
theorem arr_sum (c : Dev nD) (i : S100000x32.Idx) :
    (dat0 V c).arrAt 2 cfg0.N i = ∑ k : Fin 128, xarr V c (ix2 (i 0) k) * warr V c (ix2 k (i 1)) :=
  congrFun (arr_eq V c) i

/-! ## The reference's product -/

/-- The reference's contraction: axis 1 of the left matrix against axis 0 of the right. -/
abbrev refDot : DotDims S100000x128 S128x32 S100000x32 :=
  Cert.ReferenceIdeal.dot_S100000x128_S128x32_S100000x32_1_0_0_1_n_n

theorem refDot_rank : refDot.contr.rank = 1 := rfl
theorem refDot_size : refDot.contr.size ⟨0, by rw [refDot_rank]; exact Nat.one_pos⟩ = 128 := rfl

theorem refDot_lhs0 (j : S100000x32.Idx) (k : refDot.contr.Idx) : (refDot.lhsIdx j k 0).val = (j 0).val := by
  simp [DotDims.lhsIdx, refDot, Cert.ReferenceIdeal.dot_S100000x128_S128x32_S100000x32_1_0_0_1_n_n]
  rfl
theorem refDot_lhs1 (j : S100000x32.Idx) (k : refDot.contr.Idx) :
    (refDot.lhsIdx j k 1).val = (k ⟨0, by rw [refDot_rank]; exact Nat.one_pos⟩).val :=
  refDot.lhsIdx_val_of_single rfl j k
theorem refDot_rhs0 (j : S100000x32.Idx) (k : refDot.contr.Idx) :
    (refDot.rhsIdx j k 0).val = (k ⟨0, by rw [refDot_rank]; exact Nat.one_pos⟩).val :=
  refDot.rhsIdx_val_of_single rfl j k
theorem refDot_rhs1 (j : S100000x32.Idx) (k : refDot.contr.Idx) : (refDot.rhsIdx j k 1).val = (j 1).val := by
  simp [DotDims.rhsIdx, refDot, Cert.ReferenceIdeal.dot_S100000x128_S128x32_S100000x32_1_0_0_1_n_n]
  rfl

/-- The reference's host product at an index: row times column. -/
theorem ref_sum (X : FVec Ideal S100000x128 .f32) (W : FVec Ideal S128x32 .f32) (i : S100000x32.Idx) :
    Host.dotGeneral (F := Ideal) Cert.ReferenceIdeal.dot_S100000x128_S128x32_S100000x32_1_0_0_1_n_n none X W i
      = ∑ k : Fin 128, X (ix2 (i 0) k) * W (ix2 k (i 1)) := by
  show FloatOps.dotGeneral refDot none _ X W i = _
  rw [Ideal.dotGeneral_apply, ← Equiv.sum_comp (contrEquiv1 refDot 128 refDot_rank refDot_size).symm]
  refine Finset.sum_congr rfl fun k _ => ?_
  have ck := contrEquiv1_symm_val refDot 128 refDot_rank refDot_size k
  have l : refDot.lhsIdx i ((contrEquiv1 refDot 128 refDot_rank refDot_size).symm k) = ix2 (i 0) k := by
    funext a; apply Fin.ext
    match a with
    | ⟨0, _⟩ => exact refDot_lhs0 _ _
    | ⟨1, _⟩ => exact (refDot_lhs1 _ _).trans ck
  have r : refDot.rhsIdx i ((contrEquiv1 refDot 128 refDot_rank refDot_size).symm k) = ix2 k (i 1) := by
    funext a; apply Fin.ext
    match a with
    | ⟨0, _⟩ => exact (refDot_rhs0 _ _).trans ck
    | ⟨1, _⟩ => exact refDot_rhs1 _ _
  exact congrArg₂ (fun a b : EReal => a * b) (congrArg X l) (congrArg W r)

/-- The output array after the region is the reference's own host product of the two input arrays. -/
theorem arr_out (c : Dev nD) :
    (dat0 V c).arrAt 2 cfg0.N
      = Host.dotGeneral (F := Ideal) Cert.ReferenceIdeal.dot_S100000x128_S128x32_S100000x32_1_0_0_1_n_n none (xarr V c) (warr V c) :=
  funext fun i => (arr_sum V c i).trans (ref_sum (xarr V c) (warr V c) i).symm

end Cert.KernelIdeal.RegionMatmul0

end
-- ==== Proof.RegionMatmul2.lean ====
/- The second matrix-product region of the two-layer graph convolution, read as one whole-array function.
   The region's grid has 10 points; point t takes rows 10000 t .. 10000 t + 9999 of the left matrix X (100000 x 32),
   the whole right matrix W (32 x 16), and writes rows 10000 t .. 10000 t + 9999 of the output (100000 x 16). At the
   extended reals the cast of a block to its own shape and the format changes are the identity and the product into a
   zero accumulator is the plain sum, so each point writes its block of  i ↦ ∑ k, X (i 0, k) * W (k, i 1)
   (`pay_apply`, `flushed_eq`); the 10 blocks cover the output (`cover`), so the output array after the region is that
   function (`arr_eq`, `arr_sum`). The reference's host product at an index is the same sum (`ref_sum`), hence the output
   array is the reference's product of the two input arrays (`arr_out`). -/
import proofs.«408000_j5832565588575_2_alg».proof.Proof.Gen.KernelIdeal.Frame
import proofs.«408000_j5832565588575_2_alg».proof.Proof.Gen.ReferenceIdeal
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.RegionMatmul2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The two input arrays and their product -/

/-- The left matrix: the first input array as the region finds it. -/
abbrev xarr (c : Dev nD) : FVec Ideal S100000x32 .f32 := V c (Pipeline.arrRef spec2 0)
/-- The right matrix: the second input array as the region finds it. -/
abbrev warr (c : Dev nD) : FVec Ideal S32x16 .f32 := V c (Pipeline.arrRef spec2 1)

/-- The product of a 100000 x 32 matrix and a 32 x 16 matrix, entry by entry: row times column. -/
def matProd (X : FVec Ideal S100000x32 .f32) (W : FVec Ideal S32x16 .f32) : FVec Ideal S100000x16 .f32 :=
  fun i => ∑ k : Fin 32, X (ix2 (i 0) k) * W (ix2 k (i 1))

/-! ## The body's product of two blocks, at an entry -/

/-- The body's contraction: axis 1 of the left block against axis 0 of the right. -/
abbrev blkDot : DotDims S10000x32 S32x16 S10000x16 := dot_S10000x32_S32x16_S10000x16_1_0_0_1_n_n

theorem blkDot_rank : blkDot.contr.rank = 1 := rfl
theorem blkDot_size : blkDot.contr.size ⟨0, by rw [blkDot_rank]; exact Nat.one_pos⟩ = 32 := rfl

theorem blkDot_lhs0 (j : S10000x16.Idx) (k : blkDot.contr.Idx) : (blkDot.lhsIdx j k 0).val = (j 0).val := by
  simp [DotDims.lhsIdx, blkDot, dot_S10000x32_S32x16_S10000x16_1_0_0_1_n_n]
  rfl
theorem blkDot_lhs1 (j : S10000x16.Idx) (k : blkDot.contr.Idx) :
    (blkDot.lhsIdx j k 1).val = (k ⟨0, by rw [blkDot_rank]; exact Nat.one_pos⟩).val :=
  blkDot.lhsIdx_val_of_single rfl j k
theorem blkDot_rhs0 (j : S10000x16.Idx) (k : blkDot.contr.Idx) :
    (blkDot.rhsIdx j k 0).val = (k ⟨0, by rw [blkDot_rank]; exact Nat.one_pos⟩).val :=
  blkDot.rhsIdx_val_of_single rfl j k
theorem blkDot_rhs1 (j : S10000x16.Idx) (k : blkDot.contr.Idx) : (blkDot.rhsIdx j k 1).val = (j 1).val := by
  simp [DotDims.rhsIdx, blkDot, dot_S10000x32_S32x16_S10000x16_1_0_0_1_n_n]
  rfl

/-- The body's payload at entry (p, q): row p of the left block times column q of the right block. The cast of
    the left block to its own shape and the format changes are the identity on the extended reals, and the accumulator is zero. -/
theorem pay_apply (x : Vec Ideal S10000x32 .f32) (w : Vec Ideal S32x16 .f32) (p : Fin 10000) (q : Fin 16) :
    k2_pay1 (F := Ideal) x w (ix2 p q) = ∑ k : Fin 32, x (ix2 p k) * w (ix2 k q) := by
  unfold k2_pay1
  simp only [shapeCast_self]
  refine (Ideal.matmul_constant_zero_apply blkDot none _ _ (ix2 p q)).trans ?_
  rw [← Equiv.sum_comp (contrEquiv1 blkDot 32 blkDot_rank blkDot_size).symm]
  refine Finset.sum_congr rfl fun k _ => ?_
  have ck := contrEquiv1_symm_val blkDot 32 blkDot_rank blkDot_size k
  have l : blkDot.lhsIdx (ix2 p q) ((contrEquiv1 blkDot 32 blkDot_rank blkDot_size).symm k) = ix2 p k := by
    funext a; apply Fin.ext
    match a with
    | ⟨0, _⟩ => exact blkDot_lhs0 _ _
    | ⟨1, _⟩ => exact (blkDot_lhs1 _ _).trans ck
  have r : blkDot.rhsIdx (ix2 p q) ((contrEquiv1 blkDot 32 blkDot_rank blkDot_size).symm k) = ix2 k q := by
    funext a; apply Fin.ext
    match a with
    | ⟨0, _⟩ => exact (blkDot_rhs0 _ _).trans ck
    | ⟨1, _⟩ => exact blkDot_rhs1 _ _
  show x (blkDot.lhsIdx (ix2 p q) _) * w (blkDot.rhsIdx (ix2 p q) _) = _
  rw [l, r]

/-! ## The blocks of the grid -/

theorem hz : (![0, 0] : Fin 2 → Nat) = fun _ => 0 := funext fun a => by fin_cases a <;> rfl

/-- The printed index maps over the 10 grid points: the left matrix's and the output's blocks are block row t, all
    columns; the right matrix is read whole at every point. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The left block at point t is rows 10000 t .. 10000 t + 9999 of the left matrix. -/
theorem xblk_apply (c : Dev nD) (t : Fin cfg2.N) (p : Fin 10000) (k : Fin 32) (p' : Fin 100000)
    (hp : p'.val = t.val * 10000 + p.val) :
    (iblk2 V c 0 t : Vec Ideal S10000x32 .f32) (ix2 p k) = xarr V c (ix2 p' k) := by
  obtain ⟨e0, e1, e2, e3, e4, e5⟩ := idx_facts t
  show V c (Pipeline.arrRef spec2 0) (((cfg2.win 0).blk t).view.emb (ix2 p k)) = V c (Pipeline.arrRef spec2 0) (ix2 p' k)
  refine congrArg (V c (Pipeline.arrRef spec2 0)) ?_
  funext a; apply Fin.ext
  match a with
  | ⟨0, _⟩ => show win2_0.index t (0 : Fin 2) * 10000 + 1 * p.val = p'.val; omega
  | ⟨1, _⟩ => show win2_0.index t (1 : Fin 2) * 32 + 1 * k.val = k.val; omega

/-- The right block at every point is the right matrix. -/
theorem wblk_apply (c : Dev nD) (t : Fin cfg2.N) (k : Fin 32) (q : Fin 16) :
    (iblk2 V c 1 t : Vec Ideal S32x16 .f32) (ix2 k q) = warr V c (ix2 k q) := by
  obtain ⟨e0, e1, e2, e3, e4, e5⟩ := idx_facts t
  show V c (Pipeline.arrRef spec2 1) (((cfg2.win 1).blk t).view.emb (ix2 k q)) = V c (Pipeline.arrRef spec2 1) (ix2 k q)
  refine congrArg (V c (Pipeline.arrRef spec2 1)) ?_
  funext a; apply Fin.ext
  match a with
  | ⟨0, _⟩ => show win2_1.index t (0 : Fin 2) * 32 + 1 * k.val = k.val; omega
  | ⟨1, _⟩ => show win2_1.index t (1 : Fin 2) * 16 + 1 * q.val = q.val; omega

/-- Entry (p, q) of the output block at point t sits at row 10000 t + p, column q of the output array. -/
theorem oblk_emb (t : Fin cfg2.N) (p : Fin 10000) (q : Fin 16) (p' : Fin 100000) (hp : p'.val = t.val * 10000 + p.val) :
    ((cfg2.win 2).blk t).view.emb (ix2 p q) = (ix2 p' q : S100000x16.Idx) := by
  obtain ⟨e0, e1, e2, e3, e4, e5⟩ := idx_facts t
  funext a; apply Fin.ext
  match a with
  | ⟨0, _⟩ => show win2_2.index t (0 : Fin 2) * 10000 + 1 * p.val = p'.val; omega
  | ⟨1, _⟩ => show win2_2.index t (1 : Fin 2) * 16 + 1 * q.val = q.val; omega

/-- What the body leaves at a point, entry by entry, over any two blocks that are those rows of X and all of W. -/
theorem block_entry (X : FVec Ideal S100000x32 .f32) (W : FVec Ideal S32x16 .f32)
    (x : Vec Ideal S10000x32 .f32) (w : Vec Ideal S32x16 .f32) (r : ℕ)
    (hx : ∀ (p : Fin 10000) (k : Fin 32) (p' : Fin 100000), p'.val = r * 10000 + p.val → x (ix2 p k) = X (ix2 p' k))
    (hw : ∀ (k : Fin 32) (q : Fin 16), w (ix2 k q) = W (ix2 k q))
    (p : Fin 10000) (q : Fin 16) (p' : Fin 100000) (hp : p'.val = r * 10000 + p.val) :
    k2_pay1 (F := Ideal) x w (ix2 p q) = matProd X W (ix2 p' q) := by
  rw [pay_apply]
  unfold matProd
  exact Finset.sum_congr rfl fun k _ => by rw [hx p k p' hp, hw k q]

/-- WHAT POINT t WRITES BACK is block t of the product of the two input arrays. -/
theorem flushed_eq (c : Dev nD) (t : Fin cfg2.N) :
    (dat2 V c).flushed 2 t = ((cfg2.win 2).blk t).view.read (Elt Ideal) (matProd (xarr V c) (warr V c)) := by
  show (cfg2.win 2).cut (grid2.coords t) ((dat2 V c).after 2 t) = _
  rw [after2_2]
  unfold out2_2
  rw [View.canon_unit_zero hz]
  simp only [View.ld_unit_zero (S := S10000x32) hz, View.ld_unit_zero (S := S32x16) hz]
  funext j
  obtain ⟨p, q, rfl⟩ : ∃ (p : Fin 10000) (q : Fin 16), j = ix2 p q := ⟨j 0, j 1, eq_ix2 j⟩
  have ht : t.val < 10 := lt_of_lt_of_eq t.isLt N_2
  show k2_pay1 (F := Ideal) (iblk2 V c 0 t) (iblk2 V c 1 t) (ix2 p q) = matProd (xarr V c) (warr V c) (((cfg2.win 2).blk t).view.emb (ix2 p q))
  rw [oblk_emb t p q ⟨t.val * 10000 + p.val, by have := p.isLt; omega⟩ rfl]
  exact block_entry (xarr V c) (warr V c) _ _ t.val (fun p k p' hp => xblk_apply V c t p k p' hp)
    (fun k q => wblk_apply V c t k q) p q _ rfl

/-- An index of the output array is in point t's block iff each coordinate is in the block's range on its axis. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v26).slice (win2_2.rect t)).set ↔ _
  rw [View.set_slice_whole, Rect.mem_set_unit]
  exact Iff.rfl

/-- Every index of the output array is in some point's block: row r is in block row r / 10000, every column in every block. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : grid2.N = 10 := N_2
  obtain ⟨t, ht⟩ : ∃ t : Fin cfg2.N, t.val = (i 0).val / 10000 := ⟨⟨(i 0).val / 10000, lt_of_lt_of_eq (by omega : (i 0).val / 10000 < 10) hN.symm⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-! ## The output array after the region -/

/-- The output array after the region is the product of the two input arrays. -/
theorem arr_eq (c : Dev nD) : (dat2 V c).arrAt 2 cfg2.N = matProd (xarr V c) (warr V c) :=
  (dat2 V c).arrAt_eq_of_cover 2 (matProd (xarr V c) (warr V c)) (fun t _ => flushed_eq V c t) cover

/-- The output array after the region, at an index: row times column. -/
theorem arr_sum (c : Dev nD) (i : S100000x16.Idx) :
    (dat2 V c).arrAt 2 cfg2.N i = ∑ k : Fin 32, xarr V c (ix2 (i 0) k) * warr V c (ix2 k (i 1)) :=
  congrFun (arr_eq V c) i

/-! ## The reference's product -/

/-- The reference's contraction: axis 1 of the left matrix against axis 0 of the right. -/
abbrev refDot : DotDims S100000x32 S32x16 S100000x16 :=
  Cert.ReferenceIdeal.dot_S100000x32_S32x16_S100000x16_1_0_0_1_n_n

theorem refDot_rank : refDot.contr.rank = 1 := rfl
theorem refDot_size : refDot.contr.size ⟨0, by rw [refDot_rank]; exact Nat.one_pos⟩ = 32 := rfl

theorem refDot_lhs0 (j : S100000x16.Idx) (k : refDot.contr.Idx) : (refDot.lhsIdx j k 0).val = (j 0).val := by
  simp [DotDims.lhsIdx, refDot, Cert.ReferenceIdeal.dot_S100000x32_S32x16_S100000x16_1_0_0_1_n_n]
  rfl
theorem refDot_lhs1 (j : S100000x16.Idx) (k : refDot.contr.Idx) :
    (refDot.lhsIdx j k 1).val = (k ⟨0, by rw [refDot_rank]; exact Nat.one_pos⟩).val :=
  refDot.lhsIdx_val_of_single rfl j k
theorem refDot_rhs0 (j : S100000x16.Idx) (k : refDot.contr.Idx) :
    (refDot.rhsIdx j k 0).val = (k ⟨0, by rw [refDot_rank]; exact Nat.one_pos⟩).val :=
  refDot.rhsIdx_val_of_single rfl j k
theorem refDot_rhs1 (j : S100000x16.Idx) (k : refDot.contr.Idx) : (refDot.rhsIdx j k 1).val = (j 1).val := by
  simp [DotDims.rhsIdx, refDot, Cert.ReferenceIdeal.dot_S100000x32_S32x16_S100000x16_1_0_0_1_n_n]
  rfl

/-- The reference's host product at an index: row times column. -/
theorem ref_sum (X : FVec Ideal S100000x32 .f32) (W : FVec Ideal S32x16 .f32) (i : S100000x16.Idx) :
    Host.dotGeneral (F := Ideal) Cert.ReferenceIdeal.dot_S100000x32_S32x16_S100000x16_1_0_0_1_n_n none X W i
      = ∑ k : Fin 32, X (ix2 (i 0) k) * W (ix2 k (i 1)) := by
  show FloatOps.dotGeneral refDot none _ X W i = _
  rw [Ideal.dotGeneral_apply, ← Equiv.sum_comp (contrEquiv1 refDot 32 refDot_rank refDot_size).symm]
  refine Finset.sum_congr rfl fun k _ => ?_
  have ck := contrEquiv1_symm_val refDot 32 refDot_rank refDot_size k
  have l : refDot.lhsIdx i ((contrEquiv1 refDot 32 refDot_rank refDot_size).symm k) = ix2 (i 0) k := by
    funext a; apply Fin.ext
    match a with
    | ⟨0, _⟩ => exact refDot_lhs0 _ _
    | ⟨1, _⟩ => exact (refDot_lhs1 _ _).trans ck
  have r : refDot.rhsIdx i ((contrEquiv1 refDot 32 refDot_rank refDot_size).symm k) = ix2 k (i 1) := by
    funext a; apply Fin.ext
    match a with
    | ⟨0, _⟩ => exact (refDot_rhs0 _ _).trans ck
    | ⟨1, _⟩ => exact refDot_rhs1 _ _
  exact congrArg₂ (fun a b : EReal => a * b) (congrArg X l) (congrArg W r)

/-- The output array after the region is the reference's own host product of the two input arrays. -/
theorem arr_out (c : Dev nD) :
    (dat2 V c).arrAt 2 cfg2.N
      = Host.dotGeneral (F := Ideal) Cert.ReferenceIdeal.dot_S100000x32_S32x16_S100000x16_1_0_0_1_n_n none (xarr V c) (warr V c) :=
  funext fun i => (arr_sum V c i).trans (ref_sum (xarr V c) (warr V c) i).symm

end Cert.KernelIdeal.RegionMatmul2

end
-- ==== Proof.RegionBias1.lean ====
import proofs.«408000_j5832565588575_2_alg».proof.Proof.Gen.KernelIdeal.Frame
import proofs.«408000_j5832565588575_2_alg».proof.Proof.Gen.ReferenceIdeal
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.RegionBias1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # Region 1: the bias pass with the rectifier, as one function of its two input arrays

The region walks the `[100000, 32]` array in ten blocks of 10000 rows; at each block it adds the one bias row to every
row of the block and takes the maximum with zero. Read index by index, the array it leaves is
`i ↦ max (A i + b (0, i₁)) 0`: the host's own rectified sum of `A` with the row broadcast down the rows. -/

/-- The array of rows the region reads (window 0), at its literal type. -/
abbrev rows (c : Dev nD) : S100000x32.Idx → EReal := V c (Pipeline.arrRef spec1 0)
/-- The one bias row the region reads (window 1), at its literal type. -/
abbrev biasRow (c : Dev nD) : S1x32.Idx → EReal := V c (Pipeline.arrRef spec1 1)

theorem hz : (![0, 0] : Fin 2 → Nat) = fun _ => 0 := funext fun a => by fin_cases a <;> rfl

/-- What the output array holds at an index: the row entry plus the bias entry of its column, cut below at zero. -/
abbrev G (a : S100000x32.Idx → EReal) (b : S1x32.Idx → EReal) : S100000x32.Idx → EReal :=
  fun i => max (a i + b (ix2 (0 : Fin 1) (i 1 : Fin 32))) 0

/-- The body's payload at an entry of the block: the identity reshapes drop, the broadcast of the row reads the
    row at the entry's column, the scalar zero constant is the extended real zero. -/
theorem pay_apply (v0 : S1x32.Idx → EReal) (v4 : S10000x32.Idx → EReal) (p : Fin 10000) (q : Fin 32) :
    k1_pay1 (F := Ideal) v0 v4 (ix2 p q) = max (v4 (ix2 p q) + v0 (ix2 (0 : Fin 1) q)) 0 := by
  unfold k1_pay1
  show max ((shapeCast S10000x32 v4 _) (ix2 p q) + broadcastTo S10000x32 (shapeCast S1x32 (shapeCast S1x32 v0 _) _) _ (ix2 p q))
      (Ideal.ofBits .f32 0x00000000#32) = _
  rw [Ideal.ofBits_zero_f32, shapeCast_self, shapeCast_self, shapeCast_self]
  refine congrArg (fun x => max (v4 (ix2 p q) + x) 0) ?_
  refine broadcastTo_apply _ _ _ _ fun a => ?_
  match a with
  | ⟨0, _⟩ => rfl
  | ⟨1, _⟩ => rfl

/-- The printed index maps, decided over the ten grid points: the row windows sit at block `(t, 0)`, the bias window at
    block `(0, 0)`. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The payload of the two input blocks at point `t`, at an entry of the block, is `G` of the two arrays where the output's
    block puts that entry: the row block sits where the output block sits, and the bias block is the whole row. -/
theorem flushed_apply (c : Dev nD) (t : Fin cfg1.N) (y : S10000x32.Idx) :
    k1_pay1 (F := Ideal) (iblk1 V c 1 t) (iblk1 V c 0 t) y = G (rows V c) (biasRow V c) (((cfg1.win 2).blk t).view.emb y) := by
  obtain ⟨e0, e1, e2, e3, e4, e5⟩ := idx_facts t
  obtain ⟨p, q, rfl⟩ : ∃ (p : Fin 10000) (q : Fin 32), y = ix2 p q := ⟨y 0, y 1, eq_ix2 y⟩
  refine (pay_apply _ _ p q).trans ?_
  show max (rows V c (((cfg1.win 0).blk t).view.emb (ix2 p q)) + biasRow V c (((cfg1.win 1).blk t).view.emb (ix2 (0 : Fin 1) q))) 0
    = max (rows V c (((cfg1.win 2).blk t).view.emb (ix2 p q)) + biasRow V c (ix2 (0 : Fin 1) ((((cfg1.win 2).blk t).view.emb (ix2 p q)) 1 : Fin 32))) 0
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 32 + 1 * q.val = win1_2.index t (1 : Fin 2) * 32 + 1 * q.val; omega
  have h1 : ((cfg1.win 1).blk t).view.emb (ix2 (0 : Fin 1) q) = ix2 (0 : Fin 1) ((((cfg1.win 2).blk t).view.emb (ix2 p q)) 1 : Fin 32) := by
    funext a; apply Fin.ext
    match a with
    | ⟨0, _⟩ => show win1_1.index t (0 : Fin 2) * 1 + 1 * 0 = 0; omega
    | ⟨1, _⟩ => show win1_1.index t (1 : Fin 2) * 32 + 1 * q.val = win1_2.index t (1 : Fin 2) * 32 + 1 * q.val; omega
  exact congrArg (max · 0) (congrArg₂ (· + ·) (congrArg (rows V c) h0) (congrArg (biasRow V c) h1))

/-- What point `t` writes back is block `t` of `G` of the two arrays as the region finds them. -/
theorem flushed_eq (c : Dev nD) (t : Fin cfg1.N) :
    (dat1 V c).flushed 2 t = ((cfg1.win 2).blk t).view.read (Elt Ideal) (G (rows V c) (biasRow V c)) := by
  show (cfg1.win 2).cut (grid1.coords t) ((dat1 V c).after 2 t) = _
  rw [after1_2]
  unfold out1_2
  rw [View.canon_unit_zero hz]
  simp only [View.ld_unit_zero (S := S10000x32) hz, View.ld_unit_zero (S := S1x32) hz]
  funext j
  exact flushed_apply V c t j

/-- An index of the array is in point `t`'s block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v25).slice (win1_2.rect t)).set ↔ _
  rw [View.set_slice_whole, Rect.mem_set_unit]
  exact Iff.rfl

/-- Every index is in some point's block: row `r` is in the block of point `r / 10000`, which spans all the columns. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ : ∃ t : Fin cfg1.N, t.val = (i 0).val / 10000 :=
    ⟨⟨(i 0).val / 10000, by show _ < grid1.N; rw [N_1]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- The output array after the region is `G` of the two input arrays. -/
theorem arr_G (c : Dev nD) : (dat1 V c).arrAt 2 cfg1.N = G (rows V c) (biasRow V c) :=
  (dat1 V c).arrAt_eq_of_cover 2 (G (rows V c) (biasRow V c)) (fun t _ => flushed_eq V c t) cover

/-- The output array after the region, index by index. -/
theorem arr_apply (c : Dev nD) (i : S100000x32.Idx) :
    (Gen.dat1 (F := Ideal) V c).arrAt 2 cfg1.N i
      = max (rows V c i + biasRow V c (ix2 (0 : Fin 1) (i 1 : Fin 32))) 0 :=
  congrFun (arr_G V c) i

/-- The output array after the region as the host's own operation on the two input arrays: the maximum with the zero splat of the sum of the rows
    with the bias row broadcast down the rows. -/
theorem arr_out (c : Dev nD) :
    (Gen.dat1 (F := Ideal) V c).arrAt 2 cfg1.N
      = maximumf (F := Ideal) (φ := .f32) (addf (F := Ideal) (φ := .f32) (rows V c) (broadcastInDim S100000x32 ![0, 1] Cert.ReferenceIdeal.Gen.bcast_S1x32_S100000x32_0_1 (biasRow V c)))
          (broadcastInDim S100000x32 ![] Cert.ReferenceIdeal.Gen.bcast_S_S100000x32 (constant (F := Ideal) S_ .f32 0x00000000#32)) := by
  rw [arr_G]
  funext i
  show max (rows V c i + biasRow V c (ix2 (0 : Fin 1) (i 1 : Fin 32))) 0
    = max (rows V c i + broadcastInDim S100000x32 ![0, 1] Cert.ReferenceIdeal.Gen.bcast_S1x32_S100000x32_0_1 (biasRow V c) i) (Ideal.ofBits .f32 0x00000000#32)
  rw [Ideal.ofBits_zero_f32]
  refine congrArg (fun x => max (rows V c i + x) 0) (Eq.symm ?_)
  refine broadcastInDim_apply _ _ _ i _ fun a => ?_
  match a with
  | ⟨0, _⟩ => rfl
  | ⟨1, _⟩ => rfl

/-- The reshape of the bias vector to one row is its broadcast to one row: both send `(0, j)` to `b j`. -/
theorem row_eq (b : S32.Idx → EReal) :
    shapeCast S1x32 b Cert.KernelIdeal.Gen.shapeCasts_S32_S1x32
      = broadcastInDim S1x32 ![1] Cert.ReferenceIdeal.Gen.bcast_S32_S1x32_1 b := by
  funext j
  obtain ⟨p, q, rfl⟩ : ∃ (p : Fin 1) (q : Fin 32), j = ix2 p q := ⟨j 0, j 1, eq_ix2 j⟩
  have hp : p.val = 0 := by omega
  refine (shapeCast_apply b _ (ix2 p q) (ix1 q) ?_).trans (broadcastInDim_apply _ _ b (ix2 p q) (ix1 q) fun a => ?_).symm
  · rw [Shape.rowMajor_val_one, Shape.rowMajor_val_two]
    show q.val = p.val * 32 + q.val
    omega
  · match a with
    | ⟨0, _⟩ => rfl

end Cert.KernelIdeal.RegionBias1

end
-- ==== Proof.RegionBias3.lean ====
import proofs.«408000_j5832565588575_2_alg».proof.Proof.Gen.KernelIdeal.Frame
import proofs.«408000_j5832565588575_2_alg».proof.Proof.Gen.ReferenceIdeal
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.RegionBias3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # Region 3: the bias pass, as one function of its two input arrays

The region walks the `[100000, 16]` array in ten blocks of 10000 rows; at each block it adds the one bias row to every
row of the block. Read index by index, the array it leaves is
`i ↦ A i + b (0, i₁)`: the host's own sum of `A` with the row broadcast down the rows. -/

/-- The array of rows the region reads (window 0), at its literal type. -/
abbrev rows (c : Dev nD) : S100000x16.Idx → EReal := V c (Pipeline.arrRef spec3 0)
/-- The one bias row the region reads (window 1), at its literal type. -/
abbrev biasRow (c : Dev nD) : S1x16.Idx → EReal := V c (Pipeline.arrRef spec3 1)

theorem hz : (![0, 0] : Fin 2 → Nat) = fun _ => 0 := funext fun a => by fin_cases a <;> rfl

/-- What the output array holds at an index: the row entry plus the bias entry of its column. -/
abbrev G (a : S100000x16.Idx → EReal) (b : S1x16.Idx → EReal) : S100000x16.Idx → EReal :=
  fun i => a i + b (ix2 (0 : Fin 1) (i 1 : Fin 16))

/-- The body's payload at an entry of the block: the identity reshapes drop, the broadcast of the row reads the
    row at the entry's column. -/
theorem pay_apply (v0 : S1x16.Idx → EReal) (v4 : S10000x16.Idx → EReal) (p : Fin 10000) (q : Fin 16) :
    k3_pay1 (F := Ideal) v0 v4 (ix2 p q) = v4 (ix2 p q) + v0 (ix2 (0 : Fin 1) q) := by
  unfold k3_pay1
  show (shapeCast S10000x16 v4 _) (ix2 p q) + broadcastTo S10000x16 (shapeCast S1x16 (shapeCast S1x16 v0 _) _) _ (ix2 p q) = _
  rw [shapeCast_self, shapeCast_self, shapeCast_self]
  refine congrArg (v4 (ix2 p q) + ·) ?_
  refine broadcastTo_apply _ _ _ _ fun a => ?_
  match a with
  | ⟨0, _⟩ => rfl
  | ⟨1, _⟩ => rfl

/-- The printed index maps, decided over the ten grid points: the row windows sit at block `(t, 0)`, the bias window at
    block `(0, 0)`. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The payload of the two input blocks at point `t`, at an entry of the block, is `G` of the two arrays where the output's
    block puts that entry: the row block sits where the output block sits, and the bias block is the whole row. -/
theorem flushed_apply (c : Dev nD) (t : Fin cfg3.N) (y : S10000x16.Idx) :
    k3_pay1 (F := Ideal) (iblk3 V c 1 t) (iblk3 V c 0 t) y = G (rows V c) (biasRow V c) (((cfg3.win 2).blk t).view.emb y) := by
  obtain ⟨e0, e1, e2, e3, e4, e5⟩ := idx_facts t
  obtain ⟨p, q, rfl⟩ : ∃ (p : Fin 10000) (q : Fin 16), y = ix2 p q := ⟨y 0, y 1, eq_ix2 y⟩
  refine (pay_apply _ _ p q).trans ?_
  show rows V c (((cfg3.win 0).blk t).view.emb (ix2 p q)) + biasRow V c (((cfg3.win 1).blk t).view.emb (ix2 (0 : Fin 1) q))
    = rows V c (((cfg3.win 2).blk t).view.emb (ix2 p q)) + biasRow V c (ix2 (0 : Fin 1) ((((cfg3.win 2).blk t).view.emb (ix2 p q)) 1 : Fin 16))
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 16 + 1 * q.val = win3_2.index t (1 : Fin 2) * 16 + 1 * q.val; omega
  have h1 : ((cfg3.win 1).blk t).view.emb (ix2 (0 : Fin 1) q) = ix2 (0 : Fin 1) ((((cfg3.win 2).blk t).view.emb (ix2 p q)) 1 : Fin 16) := by
    funext a; apply Fin.ext
    match a with
    | ⟨0, _⟩ => show win3_1.index t (0 : Fin 2) * 1 + 1 * 0 = 0; omega
    | ⟨1, _⟩ => show win3_1.index t (1 : Fin 2) * 16 + 1 * q.val = win3_2.index t (1 : Fin 2) * 16 + 1 * q.val; omega
  exact congrArg₂ (· + ·) (congrArg (rows V c) h0) (congrArg (biasRow V c) h1)

/-- What point `t` writes back is block `t` of `G` of the two arrays as the region finds them. -/
theorem flushed_eq (c : Dev nD) (t : Fin cfg3.N) :
    (dat3 V c).flushed 2 t = ((cfg3.win 2).blk t).view.read (Elt Ideal) (G (rows V c) (biasRow V c)) := by
  show (cfg3.win 2).cut (grid3.coords t) ((dat3 V c).after 2 t) = _
  rw [after3_2]
  unfold out3_2
  rw [View.canon_unit_zero hz]
  simp only [View.ld_unit_zero (S := S10000x16) hz, View.ld_unit_zero (S := S1x16) hz]
  funext j
  exact flushed_apply V c t j

/-- An index of the array is in point `t`'s block iff each coordinate is in the block's range on its axis. -/
theorem mem_blk (t : Fin cfg3.N) (i : S100000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole main_v35).slice (win3_2.rect t)).set ↔ _
  rw [View.set_slice_whole, Rect.mem_set_unit]
  exact Iff.rfl

/-- Every index is in some point's block: row `r` is in the block of point `r / 10000`, which spans all the columns. -/
theorem cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ : ∃ t : Fin cfg3.N, t.val = (i 0).val / 10000 :=
    ⟨⟨(i 0).val / 10000, by show _ < grid3.N; rw [N_3]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 16 ≤ (i 1).val ∧ (i 1).val < win3_2.index t (1 : Fin 2) * 16 + 16; omega

/-- The output array after the region is `G` of the two input arrays. -/
theorem arr_G (c : Dev nD) : (dat3 V c).arrAt 2 cfg3.N = G (rows V c) (biasRow V c) :=
  (dat3 V c).arrAt_eq_of_cover 2 (G (rows V c) (biasRow V c)) (fun t _ => flushed_eq V c t) cover

/-- The output array after the region, index by index. -/
theorem arr_apply (c : Dev nD) (i : S100000x16.Idx) :
    (Gen.dat3 (F := Ideal) V c).arrAt 2 cfg3.N i
      = rows V c i + biasRow V c (ix2 (0 : Fin 1) (i 1 : Fin 16)) :=
  congrFun (arr_G V c) i

/-- The output array after the region as the host's own operation on the two input arrays: the sum of the rows
    with the bias row broadcast down the rows. -/
theorem arr_out (c : Dev nD) :
    (Gen.dat3 (F := Ideal) V c).arrAt 2 cfg3.N
      = addf (F := Ideal) (φ := .f32) (rows V c) (broadcastInDim S100000x16 ![0, 1] Cert.ReferenceIdeal.Gen.bcast_S1x16_S100000x16_0_1 (biasRow V c)) := by
  rw [arr_G]
  funext i
  show rows V c i + biasRow V c (ix2 (0 : Fin 1) (i 1 : Fin 16))
    = rows V c i + broadcastInDim S100000x16 ![0, 1] Cert.ReferenceIdeal.Gen.bcast_S1x16_S100000x16_0_1 (biasRow V c) i
  refine congrArg (rows V c i + ·) (Eq.symm ?_)
  refine broadcastInDim_apply _ _ _ i _ fun a => ?_
  match a with
  | ⟨0, _⟩ => rfl
  | ⟨1, _⟩ => rfl

/-- The reshape of the bias vector to one row is its broadcast to one row: both send `(0, j)` to `b j`. -/
theorem row_eq (b : S16.Idx → EReal) :
    shapeCast S1x16 b Cert.KernelIdeal.Gen.shapeCasts_S16_S1x16
      = broadcastInDim S1x16 ![1] Cert.ReferenceIdeal.Gen.bcast_S16_S1x16_1 b := by
  funext j
  obtain ⟨p, q, rfl⟩ : ∃ (p : Fin 1) (q : Fin 16), j = ix2 p q := ⟨j 0, j 1, eq_ix2 j⟩
  have hp : p.val = 0 := by omega
  refine (shapeCast_apply b _ (ix2 p q) (ix1 q) ?_).trans (broadcastInDim_apply _ _ b (ix2 p q) (ix1 q) fun a => ?_).symm
  · rw [Shape.rowMajor_val_one, Shape.rowMajor_val_two]
    show q.val = p.val * 16 + q.val
    omega
  · match a with
    | ⟨0, _⟩ => rfl

end Cert.KernelIdeal.RegionBias3

end
-- ==== Proof.Fold.lean ====
/-
  The idealized kernel program's result buffer, read back through the whole of @main.
  The generated frame names the buffer contents at every boundary of @main, `W0` (launch) … `W13` (exit): a stretch of
  host operations gives the next contents by the operations' own functions, a kernel region by what its write-backs
  leave. Walking that fold forward, buffer by buffer, every intermediate of the network is identified:
    after the first five stretches  the sources `s`, the targets `d` and the edge weights `nrm s d`;
    after the first region          the product X · W1;
    after the next two stretches    its weighted aggregate, and the first bias as one row;
    after the second region         the first layer, max (aggregate + bias) 0;
    after the third region          its product with W2;
    after the last two stretches    that product's weighted aggregate, and the second bias as one row;
    after the fourth region         the aggregate plus the bias: `gcnOut` of the six argument arrays.
  Where every edge end is a node (each index below 100000), a "fill"-mode read of a table IS the plain gather, which is the
  only place the range of the indices is used.
-/
import proofs.«408000_j5832565588575_2_alg».proof.Proof.Gen.KernelIdeal.Frame
import proofs.«408000_j5832565588575_2_alg».proof.Proof.StagesA
import proofs.«408000_j5832565588575_2_alg».proof.Proof.StagesB
import proofs.«408000_j5832565588575_2_alg».proof.Proof.StagesC
import proofs.«408000_j5832565588575_2_alg».proof.Proof.TakeMask
import proofs.«408000_j5832565588575_2_alg».proof.Proof.RegionMatmul0
import proofs.«408000_j5832565588575_2_alg».proof.Proof.RegionMatmul2
import proofs.«408000_j5832565588575_2_alg».proof.Proof.RegionBias1
import proofs.«408000_j5832565588575_2_alg».proof.Proof.RegionBias3

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.KernelIdeal.StagesA Cert.KernelIdeal.StagesB Cert.KernelIdeal.StagesC

variable (m : (ℓ : Loc nD τ sig) → Buf (Elt Ideal) ℓ) (ρ : Dev nD → PrngReg) (c : Dev nD)

/-! ## The six arguments as arrays, and the network's intermediates -/

abbrev X : FVec Ideal S100000x128 .f32 := m ((c.tc : Thread nD τ).loc main_arg0)
abbrev E : IVec S2x1600000 32 := m ((c.tc : Thread nD τ).loc main_arg1)
abbrev W1 : FVec Ideal S128x32 .f32 := m ((c.tc : Thread nD τ).loc main_arg2)
abbrev b1 : FVec Ideal S32 .f32 := m ((c.tc : Thread nD τ).loc main_arg3)
abbrev W2 : FVec Ideal S32x16 .f32 := m ((c.tc : Thread nD τ).loc main_arg4)
abbrev b2 : FVec Ideal S16 .f32 := m ((c.tc : Thread nD τ).loc main_arg5)
/-- The source node of every edge. -/
abbrev s : IVec S1600000 32 := Take.srcOf (E m c)
/-- The target node of every edge. -/
abbrev d : IVec S1600000 32 := Take.dstOf (E m c)
/-- X · W1. -/
abbrev H1 : FVec Ideal S100000x32 .f32 :=
  Host.dotGeneral (F := Ideal) Cert.ReferenceIdeal.dot_S100000x128_S128x32_S100000x32_1_0_0_1_n_n none (X m c) (W1 m c)
/-- The first layer. -/
abbrev L1 : FVec Ideal S100000x32 .f32 := Gcn.layer1 (F := Ideal) (X m c) (W1 m c) (b1 m c) (s m c) (d m c)
/-- The first layer times W2. -/
abbrev H2 : FVec Ideal S100000x16 .f32 :=
  Host.dotGeneral (F := Ideal) Cert.ReferenceIdeal.dot_S100000x32_S32x16_S100000x16_1_0_0_1_n_n none (L1 m c) (W2 m c)

/-! ## From the launch to the first region: sources, targets, degrees, edge weights -/

theorem w1_v1 : Gen.W1 m ρ c (Proc.devRef .tc main_v1) = s m c := h0_v1 (W0 m ρ c)
theorem w1_v3 : Gen.W1 m ρ c (Proc.devRef .tc main_v3) = d m c := h0_v3 (W0 m ρ c)
theorem w1_v9 : Gen.W1 m ρ c (Proc.devRef .tc main_v9) = cmpf (F := Ideal) .ogt (Gcn.deg (F := Ideal) (d m c))
    (broadcastInDim S100000 ![] bcast_S_S100000 (constant S_ .f32 0x00000000#32)) := h0_v9 (W0 m ρ c)
theorem w1_v11 : Gen.W1 m ρ c (Proc.devRef .tc main_v11) = Host.powf (Gcn.deg (F := Ideal) (d m c))
    (broadcastInDim S100000 ![] bcast_S_S100000 (constant S_ .f32 0xBF000000#32)) := h0_v11 (W0 m ρ c)
theorem w1_cst3 : Gen.W1 m ρ c (Proc.devRef .tc main_cst_3) = constant (F := Ideal) S_ .f32 0x00000000#32 := h0_cst3 (W0 m ρ c)

theorem w2_v12 : Gen.W2 m ρ c (Proc.devRef .tc main_v12) = Gcn.dinv (F := Ideal) (d m c) := by
  refine (h01_v12 (Gen.W1 m ρ c)).trans ?_
  rw [w1_v9 m ρ c, w1_v11 m ρ c, w1_cst3 m ρ c]
  unfold Gcn.dinv
  rfl
theorem w2_v1 : Gen.W2 m ρ c (Proc.devRef .tc main_v1) = s m c := (p01_v1 (Gen.W1 m ρ c)).trans (w1_v1 m ρ c)
theorem w2_v3 : Gen.W2 m ρ c (Proc.devRef .tc main_v3) = d m c := (p01_v3 (Gen.W1 m ρ c)).trans (w1_v3 m ρ c)

theorem w3_v13 : W3 m ρ c (Proc.devRef .tc main_v13) = Take.take1 (Gcn.dinv (F := Ideal) (d m c)) (s m c) := by
  refine (h02_v13 (Gen.W2 m ρ c)).trans ?_
  rw [w2_v12 m ρ c, w2_v1 m ρ c]
theorem w3_v12 : W3 m ρ c (Proc.devRef .tc main_v12) = Gcn.dinv (F := Ideal) (d m c) := (p02_v12 (Gen.W2 m ρ c)).trans (w2_v12 m ρ c)
theorem w3_v1 : W3 m ρ c (Proc.devRef .tc main_v1) = s m c := (p02_v1 (Gen.W2 m ρ c)).trans (w2_v1 m ρ c)
theorem w3_v3 : W3 m ρ c (Proc.devRef .tc main_v3) = d m c := (p02_v3 (Gen.W2 m ρ c)).trans (w2_v3 m ρ c)

theorem w4_v14 : W4 m ρ c (Proc.devRef .tc main_v14) = Take.take1 (Gcn.dinv (F := Ideal) (d m c)) (d m c) := by
  refine (h03_v14 (W3 m ρ c)).trans ?_
  rw [w3_v12 m ρ c, w3_v3 m ρ c]
theorem w4_v13 : W4 m ρ c (Proc.devRef .tc main_v13) = Take.take1 (Gcn.dinv (F := Ideal) (d m c)) (s m c) :=
  (p03_v13 (W3 m ρ c)).trans (w3_v13 m ρ c)
theorem w4_v1 : W4 m ρ c (Proc.devRef .tc main_v1) = s m c := (p03_v1 (W3 m ρ c)).trans (w3_v1 m ρ c)
theorem w4_v3 : W4 m ρ c (Proc.devRef .tc main_v3) = d m c := (p03_v3 (W3 m ρ c)).trans (w3_v3 m ρ c)

theorem w5_v1 : W5 m ρ c (Proc.devRef .tc main_v1) = s m c := (p04_v1 (W4 m ρ c)).trans (w4_v1 m ρ c)
theorem w5_v3 : W5 m ρ c (Proc.devRef .tc main_v3) = d m c := (p04_v3 (W4 m ρ c)).trans (w4_v3 m ρ c)

/-- No stretch before the first region writes an argument. -/
theorem w5_arg0 : W5 m ρ c (Proc.devRef .tc main_arg0) = X m c :=
  (p04_arg0 (W4 m ρ c)).trans ((p03_arg0 (W3 m ρ c)).trans ((p02_arg0 (Gen.W2 m ρ c)).trans ((p01_arg0 (Gen.W1 m ρ c)).trans (p0_arg0 (W0 m ρ c)))))
theorem w5_arg2 : W5 m ρ c (Proc.devRef .tc main_arg2) = W1 m c :=
  (p04_arg2 (W4 m ρ c)).trans ((p03_arg2 (W3 m ρ c)).trans ((p02_arg2 (Gen.W2 m ρ c)).trans ((p01_arg2 (Gen.W1 m ρ c)).trans (p0_arg2 (W0 m ρ c)))))
theorem w5_arg3 : W5 m ρ c (Proc.devRef .tc main_arg3) = b1 m c :=
  (p04_arg3 (W4 m ρ c)).trans ((p03_arg3 (W3 m ρ c)).trans ((p02_arg3 (Gen.W2 m ρ c)).trans ((p01_arg3 (Gen.W1 m ρ c)).trans (p0_arg3 (W0 m ρ c)))))
theorem w5_arg4 : W5 m ρ c (Proc.devRef .tc main_arg4) = W2 m c :=
  (p04_arg4 (W4 m ρ c)).trans ((p03_arg4 (W3 m ρ c)).trans ((p02_arg4 (Gen.W2 m ρ c)).trans ((p01_arg4 (Gen.W1 m ρ c)).trans (p0_arg4 (W0 m ρ c)))))
theorem w5_arg5 : W5 m ρ c (Proc.devRef .tc main_arg5) = b2 m c :=
  (p04_arg5 (W4 m ρ c)).trans ((p03_arg5 (W3 m ρ c)).trans ((p02_arg5 (Gen.W2 m ρ c)).trans ((p01_arg5 (Gen.W1 m ρ c)).trans (p0_arg5 (W0 m ρ c)))))

/-! From here on every edge end is a node. -/

variable (hS : Take.InRange (s m c)) (hD : Take.InRange (d m c))

include hS hD in
/-- The edge weights: with every index a node the two fill-mode reads are plain gathers. -/
theorem w5_v15 : W5 m ρ c (Proc.devRef .tc main_v15) = Gcn.nrm (F := Ideal) (s m c) (d m c) := by
  refine (h04_v15 (W4 m ρ c)).trans ?_
  rw [w4_v13 m ρ c, w4_v14 m ρ c, Take.take1_eq _ _ hS, Take.take1_eq _ _ hD]
  unfold Gcn.nrm
  rfl

/-! ## The first region and the stretches after it -/

theorem w6_v16 : W6 m ρ c (Proc.devRef .tc main_v16) = H1 m c := by
  refine (W6_arr m ρ c 2).trans ?_
  refine (RegionMatmul0.arr_out (V5 m ρ) c).trans ?_
  exact congrArg₂ (Host.dotGeneral (F := Ideal) Cert.ReferenceIdeal.dot_S100000x128_S128x32_S100000x32_1_0_0_1_n_n none)
    (w5_arg0 m ρ c) (w5_arg2 m ρ c)
theorem w6_v1 : W6 m ρ c (Proc.devRef .tc main_v1) = s m c := (W6_of_ne m ρ c main_v1 (by decide)).trans (w5_v1 m ρ c)
theorem w6_v3 : W6 m ρ c (Proc.devRef .tc main_v3) = d m c := (W6_of_ne m ρ c main_v3 (by decide)).trans (w5_v3 m ρ c)
include hS hD in
theorem w6_v15 : W6 m ρ c (Proc.devRef .tc main_v15) = Gcn.nrm (F := Ideal) (s m c) (d m c) :=
  (W6_of_ne m ρ c main_v15 (by decide)).trans (w5_v15 m ρ c hS hD)
theorem w6_arg3 : W6 m ρ c (Proc.devRef .tc main_arg3) = b1 m c := (W6_of_ne m ρ c main_arg3 (by decide)).trans (w5_arg3 m ρ c)
theorem w6_arg4 : W6 m ρ c (Proc.devRef .tc main_arg4) = W2 m c := (W6_of_ne m ρ c main_arg4 (by decide)).trans (w5_arg4 m ρ c)
theorem w6_arg5 : W6 m ρ c (Proc.devRef .tc main_arg5) = b2 m c := (W6_of_ne m ρ c main_arg5 (by decide)).trans (w5_arg5 m ρ c)

include hS in
theorem w7_v17 : W7 m ρ c (Proc.devRef .tc main_v17)
    = Host.gather gather_S100000x32_S1600000x1_S1600000x32_1_0_n_n_0_1_132 (H1 m c) (Take.col (s m c)) := by
  refine (h1_v17 (W6 m ρ c)).trans ?_
  rw [w6_v16 m ρ c, w6_v1 m ρ c, Take.take32_eq _ _ hS]
theorem w7_v1 : W7 m ρ c (Proc.devRef .tc main_v1) = s m c := (p1_v1 (W6 m ρ c)).trans (w6_v1 m ρ c)
theorem w7_v3 : W7 m ρ c (Proc.devRef .tc main_v3) = d m c := (p1_v3 (W6 m ρ c)).trans (w6_v3 m ρ c)
include hS hD in
theorem w7_v15 : W7 m ρ c (Proc.devRef .tc main_v15) = Gcn.nrm (F := Ideal) (s m c) (d m c) := (p1_v15 (W6 m ρ c)).trans (w6_v15 m ρ c hS hD)
theorem w7_arg3 : W7 m ρ c (Proc.devRef .tc main_arg3) = b1 m c := (p1_arg3 (W6 m ρ c)).trans (w6_arg3 m ρ c)
theorem w7_arg4 : W7 m ρ c (Proc.devRef .tc main_arg4) = W2 m c := (p1_arg4 (W6 m ρ c)).trans (w6_arg4 m ρ c)
theorem w7_arg5 : W7 m ρ c (Proc.devRef .tc main_arg5) = b2 m c := (p1_arg5 (W6 m ρ c)).trans (w6_arg5 m ρ c)

include hS hD in
theorem w8_v23 : W8 m ρ c (Proc.devRef .tc main_v23) = Gcn.agg32 (F := Ideal) (H1 m c) (s m c) (d m c) := by
  refine (h11_v23 (W7 m ρ c)).trans ?_
  rw [w7_v3 m ρ c, w7_v17 m ρ c hS, w7_v15 m ρ c hS hD]
  unfold Gcn.agg32
  rfl
/-- The bias reshaped to one row is the bias broadcast to one row. -/
theorem w8_v24 : W8 m ρ c (Proc.devRef .tc main_v24) = broadcastInDim S1x32 ![1] Cert.ReferenceIdeal.Gen.bcast_S32_S1x32_1 (b1 m c) := by
  refine (h11_v24 (W7 m ρ c)).trans ?_
  rw [w7_arg3 m ρ c]
  exact RegionBias1.row_eq (b1 m c)
theorem w8_v1 : W8 m ρ c (Proc.devRef .tc main_v1) = s m c := (p11_v1 (W7 m ρ c)).trans (w7_v1 m ρ c)
theorem w8_v3 : W8 m ρ c (Proc.devRef .tc main_v3) = d m c := (p11_v3 (W7 m ρ c)).trans (w7_v3 m ρ c)
include hS hD in
theorem w8_v15 : W8 m ρ c (Proc.devRef .tc main_v15) = Gcn.nrm (F := Ideal) (s m c) (d m c) := (p11_v15 (W7 m ρ c)).trans (w7_v15 m ρ c hS hD)
theorem w8_arg4 : W8 m ρ c (Proc.devRef .tc main_arg4) = W2 m c := (p11_arg4 (W7 m ρ c)).trans (w7_arg4 m ρ c)
theorem w8_arg5 : W8 m ρ c (Proc.devRef .tc main_arg5) = b2 m c := (p11_arg5 (W7 m ρ c)).trans (w7_arg5 m ρ c)

/-! ## The second and third regions -/

include hS hD in
theorem w9_v25 : W9 m ρ c (Proc.devRef .tc main_v25) = L1 m c := by
  refine (W9_arr m ρ c 2).trans ?_
  refine (RegionBias1.arr_out (V8 m ρ) c).trans ?_
  rw [show RegionBias1.rows (V8 m ρ) c = Gcn.agg32 (F := Ideal) (H1 m c) (s m c) (d m c) from w8_v23 m ρ c hS hD,
    show RegionBias1.biasRow (V8 m ρ) c = broadcastInDim S1x32 ![1] Cert.ReferenceIdeal.Gen.bcast_S32_S1x32_1 (b1 m c) from w8_v24 m ρ c]
  unfold L1 Gcn.layer1
  rfl
theorem w9_v1 : W9 m ρ c (Proc.devRef .tc main_v1) = s m c := (W9_of_ne m ρ c main_v1 (by decide)).trans (w8_v1 m ρ c)
theorem w9_v3 : W9 m ρ c (Proc.devRef .tc main_v3) = d m c := (W9_of_ne m ρ c main_v3 (by decide)).trans (w8_v3 m ρ c)
include hS hD in
theorem w9_v15 : W9 m ρ c (Proc.devRef .tc main_v15) = Gcn.nrm (F := Ideal) (s m c) (d m c) :=
  (W9_of_ne m ρ c main_v15 (by decide)).trans (w8_v15 m ρ c hS hD)
theorem w9_arg4 : W9 m ρ c (Proc.devRef .tc main_arg4) = W2 m c := (W9_of_ne m ρ c main_arg4 (by decide)).trans (w8_arg4 m ρ c)
theorem w9_arg5 : W9 m ρ c (Proc.devRef .tc main_arg5) = b2 m c := (W9_of_ne m ρ c main_arg5 (by decide)).trans (w8_arg5 m ρ c)

include hS hD in
theorem w10_v26 : W10 m ρ c (Proc.devRef .tc main_v26) = H2 m c := by
  refine (W10_arr m ρ c 2).trans ?_
  refine (RegionMatmul2.arr_out (V9 m ρ) c).trans ?_
  exact congrArg₂ (Host.dotGeneral (F := Ideal) Cert.ReferenceIdeal.dot_S100000x32_S32x16_S100000x16_1_0_0_1_n_n none)
    (w9_v25 m ρ c hS hD) (w9_arg4 m ρ c)
theorem w10_v1 : W10 m ρ c (Proc.devRef .tc main_v1) = s m c := (W10_of_ne m ρ c main_v1 (by decide)).trans (w9_v1 m ρ c)
theorem w10_v3 : W10 m ρ c (Proc.devRef .tc main_v3) = d m c := (W10_of_ne m ρ c main_v3 (by decide)).trans (w9_v3 m ρ c)
include hS hD in
theorem w10_v15 : W10 m ρ c (Proc.devRef .tc main_v15) = Gcn.nrm (F := Ideal) (s m c) (d m c) :=
  (W10_of_ne m ρ c main_v15 (by decide)).trans (w9_v15 m ρ c hS hD)
theorem w10_arg5 : W10 m ρ c (Proc.devRef .tc main_arg5) = b2 m c := (W10_of_ne m ρ c main_arg5 (by decide)).trans (w9_arg5 m ρ c)

/-! ## The last two stretches and the fourth region -/

include hS hD in
theorem w11_v27 : W11 m ρ c (Proc.devRef .tc main_v27)
    = Host.gather gather_S100000x16_S1600000x1_S1600000x16_1_0_n_n_0_1_116 (H2 m c) (Take.col (s m c)) := by
  refine (h3_v27 (W10 m ρ c)).trans ?_
  rw [w10_v26 m ρ c hS hD, w10_v1 m ρ c, Take.take16_eq _ _ hS]
theorem w11_v3 : W11 m ρ c (Proc.devRef .tc main_v3) = d m c := (p3_v3 (W10 m ρ c)).trans (w10_v3 m ρ c)
include hS hD in
theorem w11_v15 : W11 m ρ c (Proc.devRef .tc main_v15) = Gcn.nrm (F := Ideal) (s m c) (d m c) := (p3_v15 (W10 m ρ c)).trans (w10_v15 m ρ c hS hD)
theorem w11_arg5 : W11 m ρ c (Proc.devRef .tc main_arg5) = b2 m c := (p3_arg5 (W10 m ρ c)).trans (w10_arg5 m ρ c)

include hS hD in
theorem w12_v33 : W12 m ρ c (Proc.devRef .tc main_v33) = Gcn.agg16 (F := Ideal) (H2 m c) (s m c) (d m c) := by
  refine (h31_v33 (W11 m ρ c)).trans ?_
  rw [w11_v3 m ρ c, w11_v27 m ρ c hS hD, w11_v15 m ρ c hS hD]
  unfold Gcn.agg16
  rfl
theorem w12_v34 : W12 m ρ c (Proc.devRef .tc main_v34) = broadcastInDim S1x16 ![1] Cert.ReferenceIdeal.Gen.bcast_S16_S1x16_1 (b2 m c) := by
  refine (h31_v34 (W11 m ρ c)).trans ?_
  rw [w11_arg5 m ρ c]
  exact RegionBias3.row_eq (b2 m c)

include hS hD in
/-- THE RESULT BUFFER at @main's exit holds the network's value at the six argument arrays. -/
theorem w13_v35 : W13 m ρ c (Proc.devRef .tc main_v35) = Gcn.gcnOut (F := Ideal) (X m c) (E m c) (W1 m c) (b1 m c) (W2 m c) (b2 m c) := by
  refine (W13_arr m ρ c 2).trans ?_
  refine (RegionBias3.arr_out (V12 m ρ) c).trans ?_
  rw [show RegionBias3.rows (V12 m ρ) c = Gcn.agg16 (F := Ideal) (H2 m c) (s m c) (d m c) from w12_v33 m ρ c hS hD,
    show RegionBias3.biasRow (V12 m ρ) c = broadcastInDim S1x16 ![1] Cert.ReferenceIdeal.Gen.bcast_S16_S1x16_1 (b2 m c) from w12_v34 m ρ c]
  unfold Gcn.gcnOut
  rfl

end Cert.KernelIdeal.Fold

end
-- ==== Proof.lean ====
/-
  A two-layer graph convolution (100000 nodes, 1600000 edges, 128 → 32 → 16 features): a kernel program whose two
  matrix products and two bias passes run as four pipelined kernel regions, against the plain array program.

  Both programs compute, with `s`, `d` the source and target node of every edge,
      out = agg (max (agg (X · W1) + b1) 0 · W2) + b2,     agg h = the sum over arriving edges of h[s] · dinv[s] · dinv[d],
  `dinv` the inverse square root of a node's in-degree (zero at an isolated node). They differ in two ways only.
  The kernel rounds the operands of its products to a narrower format, which is the identity on extended reals, and
  computes each product and each bias pass block by block over ten blocks of 10000 rows: block by block a product
  into a zero accumulator is the whole product, and a pass over rows is the same pass. And the kernel reads its
  three tables in "fill" mode, an out-of-range index giving a not-a-number word, where the reference's gather clamps the
  index: the two agree exactly where every edge end is a node, `0 ≤ e < 100000`, which the precondition states
  (outside it the reference itself indexes its tables out of range). Gathers, scatter-adds and the power stay opaque:
  both programs apply the same ones to the same arguments.

  The frames of the two kernel programs are the generated ones; the reference's is its run with the result dropped;
  the idealization rewrote nothing. For the value claim the kernel's run is taken with its result buffer kept, that
  buffer is read back through @main to the network's value at the arguments, the reference's run ends at the same
  function of its own arguments, and the arguments agree.
-/
import proofs.«408000_j5832565588575_2_alg».proof.Defs
import proofs.«408000_j5832565588575_2_alg».proof.Proof.Gen.Kernel
import proofs.«408000_j5832565588575_2_alg».proof.Proof.Gen.Kernel.Frame
import proofs.«408000_j5832565588575_2_alg».proof.Proof.Gen.KernelIdeal
import proofs.«408000_j5832565588575_2_alg».proof.Proof.Gen.KernelIdeal.Frame
import proofs.«408000_j5832565588575_2_alg».proof.Proof.Gen.ReferenceIdeal
import proofs.«408000_j5832565588575_2_alg».proof.Proof.Gen.Pre_finite_inputs
import proofs.«408000_j5832565588575_2_alg».proof.Proof.KernelRun
import proofs.«408000_j5832565588575_2_alg».proof.Proof.RefRun
import proofs.«408000_j5832565588575_2_alg».proof.Proof.RefSpec
import proofs.«408000_j5832565588575_2_alg».proof.Proof.PreRange
import proofs.«408000_j5832565588575_2_alg».proof.Proof.Fold
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both idealized programs end with the network's value at the (agreeing) arguments. -/
theorem algebraic : Cert.algebraic_KernelIdeal_ReferenceIdeal := by
  intro m ρ m' ρ' hpre hagree
  refine ⟨fun c => Cert.KernelIdeal.Gcn.gcnOut (F := Ideal)
      (Cert.KernelIdeal.Fold.X m c) (Cert.KernelIdeal.Fold.E m c) (Cert.KernelIdeal.Fold.W1 m c)
      (Cert.KernelIdeal.Fold.b1 m c) (Cert.KernelIdeal.Fold.W2 m c) (Cert.KernelIdeal.Fold.b2 m c), ?_, ?_⟩
  · exact (θ_run Cert.KernelIdeal.defs _ _).mono
      (fun r h c => ⟨(h c).1.trans (Cert.KernelIdeal.Fold.w13_v35 m ρ c
          (Cert.KernelIdeal.Take.inRange_src_of_pre m hpre c) (Cert.KernelIdeal.Take.inRange_dst_of_pre m hpre c)), (h c).2⟩)
      (Cert.KernelIdeal.RunP.run (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.RefSpec.res_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
